-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S2x64 : Shape := ⟨2, ![2, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S64x3 : Shape := ⟨2, ![64, 3]⟩
abbrev S3 : Shape := ⟨1, ![3]⟩
abbrev S_ : Shape := ⟨0, ![]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg7 : FVec F S64x4 .f32) (main_arg8 : FVec F S4 .f32) (main_arg9 : FVec F S64x3 .f32) (main_arg10 : FVec F S3 .f32) (main_v33 : IVec S_ 1) : IVec S_ 1 :=
  let main_v34 : FVec F S64x4 .f32 := Host.absf main_arg7
  let main_cst_12 : FVec F S_ .f32 := constant S_ .f32 0x7F800000#32
  let main_v35 : FVec F S64x4 .f32 := broadcastInDim S64x4 ![] bcast_S_S64x4 main_cst_12
  let main_v36 : IVec S64x4 1 := cmpf .olt main_v34 main_v35
  let main_c_13 : IVec S_ 1 := constantI S_ 1 1#1
  let main_v37 : IVec S_ 1 := (fun x v => Host.reduce IntOp.andi x v reducesTo_S64x4_S_d0_1 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S64x3 .f32 := Host.absf main_arg9
  let main_cst_16 : FVec F S_ .f32 := constant S_ .f32 0x7F800000#32
  let main_v45 : FVec F S64x3 .f32 := broadcastInDim S64x3 ![] bcast_S_S64x3 main_cst_16
  let main_v46 : IVec S64x3 1 := cmpf .olt main_v44 main_v45
  let main_c_17 : IVec S_ 1 := constantI S_ 1 1#1
  let main_v47 : IVec S_ 1 := (fun x v => Host.reduce IntOp.andi x v reducesTo_S64x3_S_d0_1 h_S_) main_v46 main_c_17
  let main_v48 : IVec S_ 1 := andi main_v43 main_v47
  let main_v49 : FVec F S3 .f32 := Host.absf main_arg10
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg4 : FVec F S64 .f32) (main_arg5 : FVec F S64x64 .f32) (main_arg6 : FVec F S64 .f32) (main_arg7 : FVec F S64x4 .f32) (main_arg8 : FVec F S4 .f32) (main_arg9 : FVec F S64x3 .f32) (main_arg10 : FVec F S3 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1000000x2 .f32) (main_arg1 : FVec F S2x64 .f32) (main_arg2 : FVec F S64 .f32) (main_arg3 : FVec F S64x64 .f32) (main_arg4 : FVec F S64 .f32) (main_arg5 : FVec F S64x64 .f32) (main_arg6 : FVec F S64 .f32) (main_arg7 : FVec F S64x4 .f32) (main_arg8 : FVec F S4 .f32) (main_arg9 : FVec F S64x3 .f32) (main_arg10 : FVec F S3 .f32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  let main_v4 : FVec F S2x64 .f32 := Host.absf main_arg1
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_v13 main_v16
-- ==== Kernel.lean ====
abbrev S1000000x2 : Shape := ⟨2, ![1000000, 2]⟩
abbrev S2x64 : Shape := ⟨2, ![2, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S64x3 : Shape := ⟨2, ![64, 3]⟩
abbrev S3 : Shape := ⟨1, ![3]⟩
abbrev S2x1000000 : Shape := ⟨2, ![2, 1000000]⟩
abbrev S_ : Shape := ⟨0, ![]⟩
abbrev S2x1015808 : Shape := ⟨2, ![2, 1015808]⟩
abbrev S64x2 : Shape := ⟨2, ![64, 2]⟩
abbrev S4x64 : Shape := ⟨2, ![4, 64]⟩
abbrev S3x64 : Shape := ⟨2, ![3, 64]⟩
abbrev S7x64 : Shape := ⟨2, ![7, 64]⟩
abbrev S7 : Shape := ⟨1, ![7]⟩
abbrev S7x1 : Shape := ⟨2, ![7, 1]⟩
abbrev S64x1 : Shape := ⟨2, ![64, 1]⟩
abbrev S7x1015808 : Shape := ⟨2, ![7, 1015808]⟩
abbrev S2x16384 : Shape := ⟨2, ![2, 16384]⟩
abbrev S7x16384 : Shape := ⟨2, ![7, 16384]⟩
abbrev S1x16384 : Shape := ⟨2, ![1, 16384]⟩
abbrev S64x16384 : Shape := ⟨2, ![64, 16384]⟩
abbrev S4x16384 : Shape := ⟨2, ![4, 16384]⟩
abbrev S3x16384 : Shape := ⟨2, ![3, 16384]⟩
abbrev S4x1000000 : Shape := ⟨2, ![4, 1000000]⟩
abbrev S3x1000000 : Shape := ⟨2, ![3, 1000000]⟩

abbrev nBuf : Space → Nat
  | .hbm => 29
  | .vmem => 12
  | .smem => 0
  | _ => 0

abbrev bufTy : (tb : Table) → Fin (tcTables nBuf tb) → BufTy
  | .hbm, ⟨0, _⟩ => ⟨S1000000x2, .f32⟩
  | .hbm, ⟨1, _⟩ => ⟨S2x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x4, .f32⟩
  | .hbm, ⟨8, _⟩ => ⟨S4, .f32⟩
  | .hbm, ⟨9, _⟩ => ⟨S64x3, .f32⟩
  | .hbm, ⟨10, _⟩ => ⟨S3, .f32⟩
  | .hbm, ⟨11, _⟩ => ⟨S2x1000000, .f32⟩
  | .hbm, ⟨12, _⟩ => ⟨S_, .i32⟩
  | .hbm, ⟨13, _⟩ => ⟨S_, .f32⟩
  | .hbm, ⟨14, _⟩ => ⟨S2x1015808, .f32⟩
  | .hbm, ⟨15, _⟩ => ⟨S64x2, .f32⟩
  | .hbm, ⟨16, _⟩ => ⟨S64x64, .f32⟩
  | .hbm, ⟨17, _⟩ => ⟨S64x64, .f32⟩
  | .hbm, ⟨18, _⟩ => ⟨S4x64, .f32⟩
  | .hbm, ⟨19, _⟩ => ⟨S3x64, .f32⟩
  | .hbm, ⟨20, _⟩ => ⟨S7x64, .f32⟩
  | .hbm, ⟨21, _⟩ => ⟨S7, .f32⟩
  | .hbm, ⟨22, _⟩ => ⟨S7x1, .f32⟩
  | .hbm, ⟨23, _⟩ => ⟨S64x1, .f32⟩
  | .hbm, ⟨24, _⟩ => ⟨S64x1, .f32⟩
  | .hbm, ⟨25, _⟩ => ⟨S64x1, .f32⟩
  | .hbm, ⟨26, _⟩ => ⟨S7x1015808, .f32⟩
  | .hbm, ⟨27, _⟩ => ⟨S4x1000000, .f32⟩
  | .hbm, ⟨28, _⟩ => ⟨S3x1000000, .f32⟩
  | .local _ .vmem, ⟨0, _⟩ => ⟨S2x16384, .f32⟩
  | .local _ .vmem, ⟨1, _⟩ => ⟨S2x16384, .f32⟩
  | .local _ .vmem, ⟨2, _⟩ => ⟨S64x2, .f32⟩
  | .local _ .vmem, ⟨3, _⟩ => ⟨S64x1, .f32⟩
  | .local _ .vmem, ⟨4, _⟩ => ⟨S64x64, .f32⟩
  | .local _ .vmem, ⟨5, _⟩ => ⟨S64x1, .f32⟩
  | .local _ .vmem, ⟨6, _⟩ => ⟨S64x64, .f32⟩
  | .local _ .vmem, ⟨7, _⟩ => ⟨S64x1, .f32⟩
  | .local _ .vmem, ⟨8, _⟩ => ⟨S7x64, .f32⟩
  | .local _ .vmem, ⟨9, _⟩ => ⟨S7x1, .f32⟩
  | .local _ .vmem, ⟨10, _⟩ => ⟨S7x16384, .f32⟩
  | .local _ .vmem, ⟨11, _⟩ => ⟨S7x16384, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S7x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S7x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S7x16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S1000000x2_S2x1000000_1_0 : S1000000x2.Transposes [1, 0] S2x1000000
  pads_S2x1000000_S2x1015808_000_0158080 : S2x1000000.Pads (![0, 0] : Fin 2 → Nat) ![0, 15808] ![0, 0] S2x1015808
  h_S_ : 0 < S_.numel
  transposes_S2x64_S64x2_1_0 : S2x64.Transposes [1, 0] S64x2
  transposes_S64x64_S64x64_1_0 : S64x64.Transposes [1, 0] S64x64
  transposes_S64x4_S4x64_1_0 : S64x4.Transposes [1, 0] S4x64
  transposes_S64x3_S3x64_1_0 : S64x3.Transposes [1, 0] S3x64
  concatenates_S4x64_S3x64_S7x64_d0 : Shape.Concatenates [S4x64, S3x64] S7x64 0
  concatenates_S4_S3_S7_d0 : Shape.Concatenates [S4, S3] S7 0
  shapeCasts_S7_S7x1 : S7.ShapeCasts S7x1
  shapeCasts_S64_S64x1 : S64.ShapeCasts S64x1
  inb_S2x16384_S2x16384_0_0 : ∀ a, (![0, 0] : Fin 2 → Nat) a + S2x16384.size a ≤ S2x16384.size a
  h_S2x16384 : 0 < S2x16384.numel
  shapeCasts_S2x16384_S2x16384 : S2x16384.ShapeCasts S2x16384
  slices_S2x16384_o0_0_S1x16384 : S2x16384.Slices ![0, 0] S1x16384
  slices_S2x16384_o1_0_S1x16384 : S2x16384.Slices ![1, 0] S1x16384
  inb_S64x2_S64x2_0_0 : ∀ a, (![0, 0] : Fin 2 → Nat) a + S64x2.size a ≤ S64x2.size a
  h_S64x2 : 0 < S64x2.numel
  shapeCasts_S64x2_S64x2 : S64x2.ShapeCasts S64x2
  slices_S64x2_o0_0_S64x1 : S64x2.Slices ![0, 0] S64x1
  broadcasts_S64x1_S64x16384 : S64x1.Broadcasts S64x16384
  broadcasts_S1x16384_S64x16384 : S1x16384.Broadcasts S64x16384
  slices_S64x2_o0_1_S64x1 : S64x2.Slices ![0, 1] S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S7x64_S7x64_0_0 : ∀ a, (![0, 0] : Fin 2 → Nat) a + S7x64.size a ≤ S7x64.size a
  h_S7x64 : 0 < S7x64.numel
  shapeCasts_S7x64_S7x64 : S7x64.ShapeCasts S7x64
  inb_S7x1_S7x1_0_0 : ∀ a, (![0, 0] : Fin 2 → Nat) a + S7x1.size a ≤ S7x1.size a
  h_S7x1 : 0 < S7x1.numel
  shapeCasts_S7x1_S7x1 : S7x1.ShapeCasts S7x1
  broadcasts_S7x1_S7x16384 : S7x1.Broadcasts S7x16384
  slices_S7x16384_o0_0_S4x16384 : S7x16384.Slices ![0, 0] S4x16384
  slices_S7x16384_o4_0_S3x16384 : S7x16384.Slices ![4, 0] S3x16384
  slices_S4x16384_o0_0_S1x16384 : S4x16384.Slices ![0, 0] S1x16384
  slices_S4x16384_o1_0_S1x16384 : S4x16384.Slices ![1, 0] S1x16384
  slices_S4x16384_o2_0_S1x16384 : S4x16384.Slices ![2, 0] S1x16384
  slices_S4x16384_o3_0_S1x16384 : S4x16384.Slices ![3, 0] S1x16384
  broadcasts_S1x16384_S4x16384 : S1x16384.Broadcasts S4x16384
  slices_S3x16384_o0_0_S1x16384 : S3x16384.Slices ![0, 0] S1x16384
  slices_S3x16384_o1_0_S1x16384 : S3x16384.Slices ![1, 0] S1x16384
  slices_S3x16384_o2_0_S1x16384 : S3x16384.Slices ![2, 0] S1x16384
  broadcasts_S1x16384_S3x16384 : S1x16384.Broadcasts S3x16384
  concatenates_S4x16384_S3x16384_S7x16384_d0 : Shape.Concatenates [S4x16384, S3x16384] S7x16384 0
  inb_S7x16384_S7x16384_0_0 : ∀ a, (![0, 0] : Fin 2 → Nat) a + S7x16384.size a ≤ S7x16384.size a
  h_S7x16384 : 0 < S7x16384.numel
  slices_S7x1015808_S4x1000000_0_0 : S7x1015808.Slices ![0, 0] S4x1000000
  slices_S7x1015808_S3x1000000_4_0 : S7x1015808.Slices ![4, 0] S3x1000000
  dot_S64x64_S64x16384_S64x16384_1_0_0_1_n_n_wf : DotDims.WF S64x64 S64x16384 S64x16384 [1] [0] [0] [1] [] []
  dot_S7x64_S64x16384_S7x16384_1_0_0_1_n_n_wf : DotDims.WF S7x64 S64x16384 S7x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16384.size a ≤ S2x1015808.size a
  hwx0_0 : ∀ i : grid0.Coords, EltTy.bits .f32 = 32 ∨ (Rect.block (s := S2x1015808) S2x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2.size a ≤ S64x2.size a
  hwx0_1 : ∀ i : grid0.Coords, EltTy.bits .f32 = 32 ∨ (Rect.block (s := S64x2) S64x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S7x64.size a ≤ S7x64.size a
  hwx0_7 : ∀ i : grid0.Coords, EltTy.bits .f32 = 32 ∨ (Rect.block (s := S7x64) S7x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S7x1.size a ≤ S7x1.size a
  hwx0_8 : ∀ i : grid0.Coords, EltTy.bits .f32 = 32 ∨ (Rect.block (s := S7x1) S7x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S7x16384.size a ≤ S7x1015808.size a
  hwx0_9 : ∀ i : grid0.Coords, EltTy.bits .f32 = 32 ∨ (Rect.block (s := S7x1015808) S7x16384.size (cc0_transform_9 i) (hinb0_9 i)).WholeWords (EltTy.packing .f32)

variable [Facts₀]

def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf
def dot_S7x64_S64x16384_S7x16384_1_0_0_1_n_n : DotDims S7x64 S64x16384 S7x16384 where
  lhsContracting := [1]
  rhsContracting := [0]
  lhsNonContracting := [0]
  rhsNonContracting := [1]
  lhsBatch := []
  rhsBatch := []
  wf := dot_S7x64_S64x16384_S7x16384_1_0_0_1_n_n_wf

abbrev win0_0 : Pipeline.Window sig grid0 :=
  Pipeline.Window.ofSpec (Memref.whole main_v1) S2x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S7x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S7x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S7x16384.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1000000x2 : Shape := ⟨2, ![1000000, 2]⟩
abbrev S2x64 : Shape := ⟨2, ![2, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S64x3 : Shape := ⟨2, ![64, 3]⟩
abbrev S3 : Shape := ⟨1, ![3]⟩
abbrev S4x3 : Shape := ⟨2, ![4, 3]⟩
abbrev S1000000x64 : Shape := ⟨2, ![1000000, 64]⟩
abbrev S1x64 : Shape := ⟨2, ![1, 64]⟩
abbrev S_ : Shape := ⟨0, ![]⟩
abbrev S1000000x4 : Shape := ⟨2, ![1000000, 4]⟩
abbrev S1x4 : Shape := ⟨2, ![1, 4]⟩
abbrev S4x1000000 : Shape := ⟨2, ![4, 1000000]⟩
abbrev S1000000x3 : Shape := ⟨2, ![1000000, 3]⟩
abbrev S1x3 : Shape := ⟨2, ![1, 3]⟩
abbrev S3x1000000 : Shape := ⟨2, ![3, 1000000]⟩
abbrev S3x4 : Shape := ⟨2, ![3, 4]⟩
abbrev S1000000 : Shape := ⟨1, ![1000000]⟩
abbrev S1x1000000 : Shape := ⟨2, ![1, 1000000]⟩

abbrev nBuf : Space → Nat
  | .hbm => 78
  | .vmem => 0
  | .smem => 0
  | _ => 0

abbrev bufTy : (tb : Table) → Fin (tcTables nBuf tb) → BufTy
  | .hbm, ⟨0, _⟩ => ⟨S1000000x2, .f32⟩
  | .hbm, ⟨1, _⟩ => ⟨S2x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x4, .f32⟩
  | .hbm, ⟨8, _⟩ => ⟨S4, .f32⟩
  | .hbm, ⟨9, _⟩ => ⟨S64x3, .f32⟩
  | .hbm, ⟨10, _⟩ => ⟨S3, .f32⟩
  | .hbm, ⟨11, _⟩ => ⟨S4x3, .f32⟩
  | .hbm, ⟨12, _⟩ => ⟨S1000000x64, .f32⟩
  | .hbm, ⟨13, _⟩ => ⟨S1x64, .f32⟩
  | .hbm, ⟨14, _⟩ => ⟨S1000000x64, .f32⟩
  | .hbm, ⟨15, _⟩ => ⟨S1000000x64, .f32⟩
  | .hbm, ⟨16, _⟩ => ⟨S_, .f32⟩
  | .hbm, ⟨17, _⟩ => ⟨S1000000x64, .f32⟩
  | .hbm, ⟨18, _⟩ => ⟨S1000000x64, .f32⟩
  | .hbm, ⟨19, _⟩ => ⟨S1000000x64, .f32⟩
  | .hbm, ⟨20, _⟩ => ⟨S1x64, .f32⟩
  | .hbm, ⟨21, _⟩ => ⟨S1000000x64, .f32⟩
  | .hbm, ⟨22, _⟩ => ⟨S1000000x64, .f32⟩
  | .hbm, ⟨23, _⟩ => ⟨S_, .f32⟩
  | .hbm, ⟨24, _⟩ => ⟨S1000000x64, .f32⟩
  | .hbm, ⟨25, _⟩ => ⟨S1000000x64, .f32⟩
  | .hbm, ⟨26, _⟩ => ⟨S1000000x64, .f32⟩
  | .hbm, ⟨27, _⟩ => ⟨S1x64, .f32⟩
  | .hbm, ⟨28, _⟩ => ⟨S1000000x64, .f32⟩
  | .hbm, ⟨29, _⟩ => ⟨S1000000x64, .f32⟩
  | .hbm, ⟨30, _⟩ => ⟨S_, .f32⟩
  | .hbm, ⟨31, _⟩ => ⟨S1000000x64, .f32⟩
  | .hbm, ⟨32, _⟩ => ⟨S1000000x64, .f32⟩
  | .hbm, ⟨33, _⟩ => ⟨S1000000x4, .f32⟩
  | .hbm, ⟨34, _⟩ => ⟨S1x4, .f32⟩
  | .hbm, ⟨35, _⟩ => ⟨S1000000x4, .f32⟩
  | .hbm, ⟨36, _⟩ => ⟨S1000000x4, .f32⟩
  | .hbm, ⟨37, _⟩ => ⟨S4x1000000, .f32⟩
  | .hbm, ⟨38, _⟩ => ⟨S1000000x3, .f32⟩
  | .hbm, ⟨39, _⟩ => ⟨S1x3, .f32⟩
  | .hbm, ⟨40, _⟩ => ⟨S1000000x3, .f32⟩
  | .hbm, ⟨41, _⟩ => ⟨S1000000x3, .f32⟩
  | .hbm, ⟨42, _⟩ => ⟨S3x1000000, .f32⟩
  | .hbm, ⟨43, _⟩ => ⟨S_, .f32⟩
  | .hbm, ⟨44, _⟩ => ⟨S4x1000000, .f32⟩
  | .hbm, ⟨45, _⟩ => ⟨S4x1000000, .f32⟩
  | .hbm, ⟨46, _⟩ => ⟨S3x4, .f32⟩
  | .hbm, ⟨47, _⟩ => ⟨S3x1000000, .f32⟩
  | .hbm, ⟨48, _⟩ => ⟨S3x1000000, .f32⟩
  | .hbm, ⟨49, _⟩ => ⟨S_, .f32⟩
  | .hbm, ⟨50, _⟩ => ⟨S1000000, .f32⟩
  | .hbm, ⟨51, _⟩ => ⟨S1000000, .f32⟩
  | .hbm, ⟨52, _⟩ => ⟨S_, .f32⟩
  | .hbm, ⟨53, _⟩ => ⟨S1000000, .f32⟩
  | .hbm, ⟨54, _⟩ => ⟨S1000000, .i1⟩
  | .hbm, ⟨55, _⟩ => ⟨S_, .f32⟩
  | .hbm, ⟨56, _⟩ => ⟨S1000000, .f32⟩
  | .hbm, ⟨57, _⟩ => ⟨S1000000, .f32⟩
  | .hbm, ⟨58, _⟩ => ⟨S_, .f32⟩
  | .hbm, ⟨59, _⟩ => ⟨S1000000, .f32⟩
  | .hbm, ⟨60, _⟩ => ⟨S1000000, .f32⟩
  | .hbm, ⟨61, _⟩ => ⟨S_, .f32⟩
  | .hbm, ⟨62, _⟩ => ⟨S_, .f32⟩
  | .hbm, ⟨63, _⟩ => ⟨S1000000, .f32⟩
  | .hbm, ⟨64, _⟩ => ⟨S1000000, .f32⟩
  | .hbm, ⟨65, _⟩ => ⟨S1x1000000, .f32⟩
  | .hbm, ⟨66, _⟩ => ⟨S4x1000000, .f32⟩
  | .hbm, ⟨67, _⟩ => ⟨S4x1000000, .f32⟩
  | .hbm, ⟨68, _⟩ => ⟨S3x1000000, .f32⟩
  | .hbm, ⟨69, _⟩ => ⟨S_, .f32⟩
  | .hbm, ⟨70, _⟩ => ⟨S1000000, .f32⟩
  | .hbm, ⟨71, _⟩ => ⟨S1x1000000, .f32⟩
  | .hbm, ⟨72, _⟩ => ⟨S1x1000000, .f32⟩
  | .hbm, ⟨73, _⟩ => ⟨S_, .f32⟩
  | .hbm, ⟨74, _⟩ => ⟨S1x1000000, .f32⟩
  | .hbm, ⟨75, _⟩ => ⟨S1x1000000, .f32⟩
  | .hbm, ⟨76, _⟩ => ⟨S3x1000000, .f32⟩
  | .hbm, ⟨77, _⟩ => ⟨S3x1000000, .f32⟩
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call2_cst : Ref sig .tc := ⟨.hbm, 30, rfl⟩
abbrev main_call2_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call3_cst : Ref sig .tc := ⟨.hbm, 43, rfl⟩
abbrev main_call3_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call4_v0 : Ref sig .tc := ⟨.hbm, 48, rfl⟩
abbrev main_call4_cst : Ref sig .tc := ⟨.hbm, 49, rfl⟩
abbrev main_call4_v1 : Ref sig .tc := ⟨.hbm, 50, rfl⟩
abbrev main_v28 : Ref sig .tc := ⟨.hbm, 51, rfl⟩
abbrev main_cst_0 : Ref sig .tc := ⟨.hbm, 52, rfl⟩
abbrev main_v29 : Ref sig .tc := ⟨.hbm, 53, rfl⟩
abbrev main_v30 : Ref sig .tc := ⟨.hbm, 54, rfl⟩
abbrev main_cst_1 : Ref sig .tc := ⟨.hbm, 55, rfl⟩
abbrev main_v31 : Ref sig .tc := ⟨.hbm, 56, rfl⟩
abbrev main_v32 : Ref sig .tc := ⟨.hbm, 57, rfl⟩
abbrev main_cst_2 : Ref sig .tc := ⟨.hbm, 58, rfl⟩
abbrev main_v33 : Ref sig .tc := ⟨.hbm, 59, rfl⟩
abbrev main_v34 : Ref sig .tc := ⟨.hbm, 60, rfl⟩
abbrev main_cst_3 : Ref sig .tc := ⟨.hbm, 61, rfl⟩
abbrev main_call5_v0 : Ref sig .tc := ⟨.hbm, 62, rfl⟩
abbrev main_call5_v1 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call6_v0 : Ref sig .tc := ⟨.hbm, 68, rfl⟩
abbrev main_call6_cst : Ref sig .tc := ⟨.hbm, 69, rfl⟩
abbrev main_call6_v1 : Ref sig .tc := ⟨.hbm, 70, rfl⟩
abbrev main_call6_v2 : Ref sig .tc := ⟨.hbm, 71, rfl⟩
abbrev main_v39 : Ref sig .tc := ⟨.hbm, 72, rfl⟩
abbrev main_cst_4 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  transposes_S1000000x4_S4x1000000_1_0 : S1000000x4.Transposes [1, 0] S4x1000000
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  transposes_S1000000x3_S3x1000000_1_0 : S1000000x3.Transposes [1, 0] S3x1000000
  bcast_S_S4x1000000 : S_.BroadcastsInDim S4x1000000 (![] : Fin 0 → Fin S4x1000000.rank)
  transposes_S4x3_S3x4_1_0 : S4x3.Transposes [1, 0] S3x4
  reducesTo_S3x1000000_S1000000_d0 : S3x1000000.ReducesTo [0] S1000000
  h_S_ : 0 < S_.numel
  bcast_S_S1000000 : S_.BroadcastsInDim S1000000 (![] : Fin 0 → Fin S1000000.rank)
  bcast_S1000000_S1x1000000_1 : S1000000.BroadcastsInDim S1x1000000 (![1] : Fin 1 → Fin S1x1000000.rank)
  bcast_S1x1000000_S4x1000000_0_1 : S1x1000000.BroadcastsInDim S4x1000000 (![0, 1] : Fin 2 → Fin S4x1000000.rank)
  bcast_S_S1x1000000 : S_.BroadcastsInDim S1x1000000 (![] : Fin 0 → Fin S1x1000000.rank)
  bcast_S1x1000000_S3x1000000_0_1 : S1x1000000.BroadcastsInDim S3x1000000 (![0, 1] : Fin 2 → Fin S3x1000000.rank)
  dot_S1000000x2_S2x64_S1000000x64_1_0_0_1_n_n_wf : DotDims.WF S1000000x2 S2x64 S1000000x64 [1] [0] [0] [1] [] []
  dot_S1000000x64_S64x64_S1000000x64_1_0_0_1_n_n_wf : DotDims.WF S1000000x64 S64x64 S1000000x64 [1] [0] [0] [1] [] []
  dot_S1000000x64_S64x4_S1000000x4_1_0_0_1_n_n_wf : DotDims.WF S1000000x64 S64x4 S1000000x4 [1] [0] [0] [1] [] []
  dot_S1000000x64_S64x3_S1000000x3_1_0_0_1_n_n_wf : DotDims.WF S1000000x64 S64x3 S1000000x3 [1] [0] [0] [1] [] []
  dot_S3x4_S4x1000000_S3x1000000_1_0_0_1_n_n_wf : DotDims.WF S3x4 S4x1000000 S3x1000000 [1] [0] [0] [1] [] []

variable [Facts₀]

def dot_S1000000x2_S2x64_S1000000x64_1_0_0_1_n_n : DotDims S1000000x2 S2x64 S1000000x64 where
  lhsContracting := [1]
  rhsContracting := [0]
  lhsNonContracting := [0]
  rhsNonContracting := [1]
  lhsBatch := []
  rhsBatch := []
  wf := dot_S1000000x2_S2x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x4_S1000000x4_1_0_0_1_n_n : DotDims S1000000x64 S64x4 S1000000x4 where
  lhsContracting := [1]
  rhsContracting := [0]
  lhsNonContracting := [0]
  rhsNonContracting := [1]
  lhsBatch := []
  rhsBatch := []
  wf := dot_S1000000x64_S64x4_S1000000x4_1_0_0_1_n_n_wf
def dot_S1000000x64_S64x3_S1000000x3_1_0_0_1_n_n : DotDims S1000000x64 S64x3 S1000000x3 where
  lhsContracting := [1]
  rhsContracting := [0]
  lhsNonContracting := [0]
  rhsNonContracting := [1]
  lhsBatch := []
  rhsBatch := []
  wf := dot_S1000000x64_S64x3_S1000000x3_1_0_0_1_n_n_wf
def dot_S3x4_S4x1000000_S3x1000000_1_0_0_1_n_n : DotDims S3x4 S4x1000000 S3x1000000 where
  lhsContracting := [1]
  rhsContracting := [0]
  lhsNonContracting := [0]
  rhsNonContracting := [1]
  lhsBatch := []
  rhsBatch := []
  wf := dot_S3x4_S4x1000000_S3x1000000_1_0_0_1_n_n_wf

class Facts : Prop extends Facts₀ where

variable [Facts]
-- ==== Proof.Spec.lean ====
/-
  What one point of the cloud is mapped to, on the extended reals.

  A point (x0, x1) goes through three dense layers of width 64 with a rectifier after each, then through two linear
  heads: four "edge" values mu, rectified, and three "state" values lam. The edge values are scaled by one common
  factor: with n the Euclidean length of the pair (mu 0 - mu 1, mu 2 - mu 3), the factor is 1 / (n + eps) when n > 1
  and 1 otherwise. The state values are divided by their own Euclidean length plus eps.

  The three float constants (zero, one, eps) are kept as the words both programs spell; nothing below evaluates them.
-/
import Idealize.ShloMosaic.Lib.ValueIdx
import Idealize.ShloMosaic.PureOps.Ideal.Laws

noncomputable section

namespace HardProj

open Idealize.ShloMosaic Idealize.ShloMosaic.ValueIdx

/-- A matrix and a vector of extended reals, indexed as the printed programs index their arrays. -/
abbrev Mat (a b : Nat) : Type := (⟨2, ![a, b]⟩ : Shape).Idx → EReal
abbrev Row (a : Nat) : Type := (⟨1, ![a]⟩ : Shape).Idx → EReal

/-- The constants: 0, 1 and eps = f32(1e-8), as their words. -/
abbrev c0 : EReal := Ideal.ofBits .f32 0x00000000#32
abbrev c1 : EReal := Ideal.ofBits .f32 0x3F800000#32
abbrev cε : EReal := Ideal.ofBits .f32 0x322BCC77#32

/-- An affine map of a 64-vector: (∑ₖ h[k] · W[k, j]) + b[j]. -/
def dense {n : Nat} (W : Mat 64 n) (b : Row n) (h : Fin 64 → EReal) (j : Fin n) : EReal :=
  (∑ k : Fin 64, h k * W (ix2 k j)) + b (ix1 j)

/-- The rectifier. -/
def relu (x : EReal) : EReal := max x c0

/-- The length of (mu 0 - mu 1, mu 2 - mu 3). -/
def clipNorm (mu : Fin 4 → EReal) : EReal :=
  Ideal.sqrt ((mu 0 - mu 1) * (mu 0 - mu 1) + (mu 2 - mu 3) * (mu 2 - mu 3))

/-- The clipping factor: 1 / (n + eps) where n > 1, else 1. -/
def clipScale (mu : Fin 4 → EReal) : EReal :=
  Scalar.select (Ideal.cmp .ogt (clipNorm mu) c1) (Ideal.div c1 (clipNorm mu + cε)) c1

/-- The four values scaled by the common factor. -/
def clip (mu : Fin 4 → EReal) (e : Fin 4) : EReal := mu e * clipScale mu

/-- The Euclidean length of three values. -/
def unitNorm (lam : Fin 3 → EReal) : EReal := Ideal.sqrt (lam 0 * lam 0 + lam 1 * lam 1 + lam 2 * lam 2)

/-- The three values over their length plus eps. -/
def unit (lam : Fin 3 → EReal) (s : Fin 3) : EReal := Ideal.div (lam s) (unitNorm lam + cε)

/-- The weights, in the reference's layout (input axis first). -/
structure Net where
  W1 : Mat 2 64
  b1 : Row 64
  W2 : Mat 64 64
  b2 : Row 64
  W3 : Mat 64 64
  b3 : Row 64
  Wmu : Mat 64 4
  bmu : Row 4
  Wlam : Mat 64 3
  blam : Row 3

variable (P : Net) (x0 x1 : EReal)

/-- First layer: relu (x0 · W1[0, j] + x1 · W1[1, j] + b1[j]). -/
def hid1 (j : Fin 64) : EReal :=
  relu (x0 * P.W1 (ix2 (0 : Fin 2) j) + x1 * P.W1 (ix2 (1 : Fin 2) j) + P.b1 (ix1 j))

/-- Second and third layers. -/
def hid2 (j : Fin 64) : EReal := relu (dense P.W2 P.b2 (hid1 P x0 x1) j)
def hid3 (j : Fin 64) : EReal := relu (dense P.W3 P.b3 (hid2 P x0 x1) j)

/-- The edge head, rectified, and the state head. -/
def muRelu (e : Fin 4) : EReal := relu (dense P.Wmu P.bmu (hid3 P x0 x1) e)
def lamLin (s : Fin 3) : EReal := dense P.Wlam P.blam (hid3 P x0 x1) s

/-- The two outputs at this point. -/
def muOut (e : Fin 4) : EReal := clip (muRelu P x0 x1) e
def lamOut (s : Fin 3) : EReal := unit (lamLin P x0 x1) s

end HardProj

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.LibRead2.lean ====
/-
  Arrays read at an entry: a column broadcast along the rows' direction, two row blocks stacked, two vectors joined,
  and a vector laid as a column.
-/
import Idealize.ShloMosaic.Lib.Pipeline.Value
import Idealize.ShloMosaic.Lib.ValueIdx

namespace Read2

open Idealize.ShloMosaic Idealize.ShloMosaic.ValueIdx

variable {α : Type}

/-- An [a, 1] column broadcast to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- [n1, m] stacked on [n2, m]: a row of the upper block. -/
theorem concat_rows_upper {n1 n2 n m : ℕ} (x₁ : (⟨2, ![n1, m]⟩ : Shape).Idx → α) (x₂ : (⟨2, ![n2, m]⟩ : Shape).Idx → α)
    (h : Shape.Concatenates [⟨2, ![n1, m]⟩, ⟨2, ![n2, m]⟩] ⟨2, ![n, m]⟩ 0) (r : Fin n) (c : Fin m) (r' : Fin n1)
    (hr : r'.val = r.val) :
    concatenate ⟨2, ![n, m]⟩ 0 [⟨⟨2, ![n1, m]⟩, x₁⟩, ⟨⟨2, ![n2, m]⟩, x₂⟩] h (ix2 r c) = x₁ (ix2 r' c) :=
  concatenate_pair_apply_left 0 x₁ x₂ h (ix2 r c) rfl (ix2 r' c)
    (fun b => match b with | ⟨0, _⟩ => hr | ⟨1, _⟩ => rfl)

/-- [n1, m] stacked on [n2, m]: a row of the lower block. -/
theorem concat_rows_lower {n1 n2 n m : ℕ} (x₁ : (⟨2, ![n1, m]⟩ : Shape).Idx → α) (x₂ : (⟨2, ![n2, m]⟩ : Shape).Idx → α)
    (h : Shape.Concatenates [⟨2, ![n1, m]⟩, ⟨2, ![n2, m]⟩] ⟨2, ![n, m]⟩ 0) (r : Fin n) (c : Fin m) (r' : Fin n2)
    (hr : r'.val + n1 = r.val) :
    concatenate ⟨2, ![n, m]⟩ 0 [⟨⟨2, ![n1, m]⟩, x₁⟩, ⟨⟨2, ![n2, m]⟩, x₂⟩] h (ix2 r c) = x₂ (ix2 r' c) :=
  concatenate_pair_apply_right 0 x₁ x₂ h (ix2 r c) rfl rfl (ix2 r' c)
    (fun b hb => match b, hb with | ⟨0, _⟩, hb => absurd rfl hb | ⟨1, _⟩, _ => rfl) hr

/-- A vector of n1 entries followed by one of n2: an entry of the first. -/
theorem concat_vec_first {n1 n2 n : ℕ} (x₁ : (⟨1, ![n1]⟩ : Shape).Idx → α) (x₂ : (⟨1, ![n2]⟩ : Shape).Idx → α)
    (h : Shape.Concatenates [⟨1, ![n1]⟩, ⟨1, ![n2]⟩] ⟨1, ![n]⟩ 0) (r : Fin n) (r' : Fin n1) (hr : r'.val = r.val) :
    concatenate ⟨1, ![n]⟩ 0 [⟨⟨1, ![n1]⟩, x₁⟩, ⟨⟨1, ![n2]⟩, x₂⟩] h (ix1 r) = x₁ (ix1 r') :=
  concatenate_pair_apply_left 0 x₁ x₂ h (ix1 r) rfl (ix1 r') (fun b => match b with | ⟨0, _⟩ => hr)

/-- … and an entry of the second. -/
theorem concat_vec_second {n1 n2 n : ℕ} (x₁ : (⟨1, ![n1]⟩ : Shape).Idx → α) (x₂ : (⟨1, ![n2]⟩ : Shape).Idx → α)
    (h : Shape.Concatenates [⟨1, ![n1]⟩, ⟨1, ![n2]⟩] ⟨1, ![n]⟩ 0) (r : Fin n) (r' : Fin n2) (hr : r'.val + n1 = r.val) :
    concatenate ⟨1, ![n]⟩ 0 [⟨⟨1, ![n1]⟩, x₁⟩, ⟨⟨1, ![n2]⟩, x₂⟩] h (ix1 r) = x₂ (ix1 r') :=
  concatenate_pair_apply_right 0 x₁ x₂ h (ix1 r) rfl rfl (ix1 r')
    (fun b hb => match b, hb with | ⟨0, _⟩, hb => absurd rfl hb) hr

/-- A vector of a entries laid as an [a, 1] column reads, at (j, 0), entry j. -/
theorem shapeCast_a_a1_apply {a : ℕ} (x : (⟨1, ![a]⟩ : Shape).Idx → α) (h : (⟨1, ![a]⟩ : Shape).ShapeCasts ⟨2, ![a, 1]⟩)
    (j : Fin a) : shapeCast ⟨2, ![a, 1]⟩ x h (ix2 j (0 : Fin 1)) = x (ix1 j) :=
  shapeCast_apply x h (ix2 j (0 : Fin 1)) (ix1 j) (by
    rw [Shape.rowMajor_val_one, Shape.rowMajor_val_two]
    show j.val = j.val * 1 + 0
    omega)

end Read2
-- ==== Proof.KBody.lean ====
/-
  The kernel body's stored value, read at an entry.

  One grid point works on 16384 consecutive points of the cloud, one per column. Column q of the stored 7 × 16384
  block is the image of the point (x[0, q], x[1, q]) under the network whose weights are the staged operands read
  TRANSPOSED (output axis first) and whose biases are staged as columns: rows 0–3 are the clipped edge values,
  rows 4–6 the normalized state values.
-/
import proofs.«414268_j89300960018671_3_alg».proof.Proof.Gen.KernelIdeal.Skeleton
import proofs.«414268_j89300960018671_3_alg».proof.Proof.Spec
import proofs.«414268_j89300960018671_3_alg».proof.Proof.LibPlainDot
import proofs.«414268_j89300960018671_3_alg».proof.Proof.LibRead2
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen HardProj

/-! ## The body's arithmetic, cut into its layers -/

section Layers
variable {F : FTy → Type} [FloatOps F]

/-- First layer: two broadcast products, the bias column, the rectifier. -/
def layer1 (v0 : Vec F S2x16384 .f32) (v4 : Vec F S64x2 .f32) (v15 : Vec F S64x1 .f32) : FVec F S64x16384 .f32 :=
  maximumf
    (addf
      (addf
        (mulf (broadcastTo S64x16384 (extractStridedSlice S64x1 ![0, 0] (shapeCast S64x2 v4 shapeCasts_S64x2_S64x2) slices_S64x2_o0_0_S64x1) broadcasts_S64x1_S64x16384)
          (broadcastTo S64x16384 (extractStridedSlice S1x16384 ![0, 0] (shapeCast S2x16384 v0 shapeCasts_S2x16384_S2x16384) slices_S2x16384_o0_0_S1x16384) broadcasts_S1x16384_S64x16384))
        (mulf (broadcastTo S64x16384 (extractStridedSlice S64x1 ![0, 1] (shapeCast S64x2 v4 shapeCasts_S64x2_S64x2) slices_S64x2_o0_1_S64x1) broadcasts_S64x1_S64x16384)
          (broadcastTo S64x16384 (extractStridedSlice S1x16384 ![1, 0] (shapeCast S2x16384 v0 shapeCasts_S2x16384_S2x16384) slices_S2x16384_o1_0_S1x16384) broadcasts_S1x16384_S64x16384)))
      (broadcastTo S64x16384 (shapeCast S64x1 v15 shapeCasts_S64x1_S64x1) broadcasts_S64x1_S64x16384))
    (broadcast S64x16384 (Scalar.ofBits .f32 0x00000000#32))

/-- A 64 → 64 layer: the matrix product, the bias column, the rectifier. -/
def layerH (W : Vec F S64x64 .f32) (b : Vec F S64x1 .f32) (h : FVec F S64x16384 .f32) : FVec F S64x16384 .f32 :=
  maximumf
    (addf (matmul dot_S64x64_S64x16384_S64x16384_1_0_0_1_n_n none (shapeCast S64x64 W shapeCasts_S64x64_S64x64) h (constant S64x16384 .f32 0x00000000#32))
      (broadcastTo S64x16384 (shapeCast S64x1 b shapeCasts_S64x1_S64x1) broadcasts_S64x1_S64x16384))
    (broadcast S64x16384 (Scalar.ofBits .f32 0x00000000#32))

/-- The fused heads: the 7 × 64 product and the bias column. -/
def heads (Wh : Vec F S7x64 .f32) (bh : Vec F S7x1 .f32) (h : FVec F S64x16384 .f32) : FVec F S7x16384 .f32 :=
  addf (matmul dot_S7x64_S64x16384_S7x16384_1_0_0_1_n_n none (shapeCast S7x64 Wh shapeCasts_S7x64_S7x64) h (constant S7x16384 .f32 0x00000000#32))
    (broadcastTo S7x16384 (shapeCast S7x1 bh shapeCasts_S7x1_S7x1) broadcasts_S7x1_S7x16384)

/-- The edge rows: rectified, then scaled by the clipping factor of their column. -/
def muPart (v46 : FVec F S4x16384 .f32) : FVec F S4x16384 .f32 :=
  have v49 : FVec F S4x16384 .f32 := maximumf v46 (broadcast S4x16384 (Scalar.ofBits .f32 0x00000000#32))
  have v52 : FVec F S1x16384 .f32 := subf (extractStridedSlice S1x16384 ![0, 0] v49 slices_S4x16384_o0_0_S1x16384) (extractStridedSlice S1x16384 ![1, 0] v49 slices_S4x16384_o1_0_S1x16384)
  have v55 : FVec F S1x16384 .f32 := subf (extractStridedSlice S1x16384 ![2, 0] v49 slices_S4x16384_o2_0_S1x16384) (extractStridedSlice S1x16384 ![3, 0] v49 slices_S4x16384_o3_0_S1x16384)
  have v59 : FVec F S1x16384 .f32 := sqrt (addf (mulf v52 v52) (mulf v55 v55))
  have v67 : FVec F S1x16384 .f32 :=
    select (cmpf .ogt v59 (broadcast S1x16384 (Scalar.ofBits .f32 0x3F800000#32)))
      (divf (broadcast S1x16384 (Scalar.ofBits .f32 0x3F800000#32)) (addf v59 (broadcast S1x16384 (Scalar.ofBits .f32 0x322BCC77#32))))
      (broadcast S1x16384 (Scalar.ofBits .f32 0x3F800000#32))
  mulf v49 (broadcastTo S4x16384 v67 broadcasts_S1x16384_S4x16384)

/-- The state rows over their column's length plus eps. -/
def lamPart (v47 : FVec F S3x16384 .f32) : FVec F S3x16384 .f32 :=
  have v70 : FVec F S3x16384 .f32 := mulf v47 v47
  have v75 : FVec F S1x16384 .f32 :=
    addf (addf (extractStridedSlice S1x16384 ![0, 0] v70 slices_S3x16384_o0_0_S1x16384) (extractStridedSlice S1x16384 ![1, 0] v70 slices_S3x16384_o1_0_S1x16384))
      (extractStridedSlice S1x16384 ![2, 0] v70 slices_S3x16384_o2_0_S1x16384)
  have v78 : FVec F S1x16384 .f32 := addf (sqrt v75) (broadcast S1x16384 (Scalar.ofBits .f32 0x322BCC77#32))
  divf v47 (broadcastTo S3x16384 v78 broadcasts_S1x16384_S3x16384)

/-- The hidden activations are the three layers composed. -/
theorem pay2_eq (v0 : Vec F S2x16384 .f32) (v4 : Vec F S64x2 .f32) (v15 : Vec F S64x1 .f32) (v21 : Vec F S64x64 .f32)
    (v24 : Vec F S64x1 .f32) (v30 : Vec F S64x64 .f32) (v33 : Vec F S64x1 .f32) :
    k0_pay2 v0 v4 v15 v21 v24 v30 v33 = layerH v30 v33 (layerH v21 v24 (layer1 v0 v4 v15)) := rfl

/-- The stored block is the two parts of the heads' result, stacked. -/
theorem pay1_eq (v38 : FVec F S64x16384 .f32) (v39 : Vec F S7x64 .f32) (v42 : Vec F S7x1 .f32) :
    k0_pay1 v38 v39 v42
      = concatenate S7x16384 0
          [⟨S4x16384, muPart (extractStridedSlice S4x16384 ![0, 0] (heads v39 v42 v38) slices_S7x16384_o0_0_S4x16384)⟩,
           ⟨S3x16384, lamPart (extractStridedSlice S3x16384 ![4, 0] (heads v39 v42 v38) slices_S7x16384_o4_0_S3x16384)⟩]
          concatenates_S4x16384_S3x16384_S7x16384_d0 := rfl

end Layers

/-! ## Each layer at an entry, on the extended reals -/

section AtIdeal

/-- First layer at (j, q): the two products with the point's coordinates, the bias, the rectifier. -/
theorem layer1_apply (v0 : FVec Ideal S2x16384 .f32) (v4 : FVec Ideal S64x2 .f32) (v15 : FVec Ideal S64x1 .f32)
    (j : Fin 64) (q : Fin 16384) :
    layer1 v0 v4 v15 (ix2 j q)
      = max (v4 (ix2 j (0 : Fin 2)) * v0 (ix2 (0 : Fin 2) q) + v4 (ix2 j (1 : Fin 2)) * v0 (ix2 (1 : Fin 2) q)
          + v15 (ix2 j (0 : Fin 1))) c0 := by
  unfold layer1
  rw [maximumf_apply, addf_apply, addf_apply, mulf_apply, mulf_apply, broadcast_apply]
  rw [Read2.broadcastTo_a1_ab_apply, Read2.broadcastTo_a1_ab_apply, Read2.broadcastTo_a1_ab_apply,
    broadcastTo_1b_ab_apply, broadcastTo_1b_ab_apply]
  rw [shapeCast_self, shapeCast_self, shapeCast_self]
  rw [slice2_axis1_apply 0 v4 _ j (0 : Fin 1) (0 : Fin 2) rfl, slice2_axis1_apply 1 v4 _ j (0 : Fin 1) (1 : Fin 2) rfl,
    slice2_axis0_apply 0 v0 _ (0 : Fin 1) q (0 : Fin 2) rfl, slice2_axis0_apply 1 v0 _ (0 : Fin 1) q (1 : Fin 2) rfl]
  rfl

/-- A square root, entry by entry. -/
theorem sqrt_apply {s : Shape} {φ : FTy} (a : FVec Ideal s φ) (i : s.Idx) : sqrt a i = Ideal.sqrt (a i) := rfl

/-- A 64 → 64 layer at (j, q): row j of the staged matrix against column q of the activations. -/
theorem layerH_apply (W : FVec Ideal S64x64 .f32) (b : FVec Ideal S64x1 .f32) (h : FVec Ideal S64x16384 .f32)
    (j : Fin 64) (q : Fin 16384) :
    layerH W b h (ix2 j q) = max ((∑ k : Fin 64, W (ix2 j k) * h (ix2 k q)) + b (ix2 j (0 : Fin 1))) c0 := by
  unfold layerH
  rw [maximumf_apply, addf_apply, broadcast_apply, Read2.broadcastTo_a1_ab_apply, shapeCast_self, shapeCast_self]
  rw [show matmul dot_S64x64_S64x16384_S64x16384_1_0_0_1_n_n none W h (constant S64x16384 .f32 0x00000000#32) (ix2 j q) = _ from
    PlainDot.matmul_zero_apply dot_S64x64_S64x16384_S64x16384_1_0_0_1_n_n ⟨rfl, rfl, rfl, rfl, rfl, rfl⟩ none W h j q]
  rfl

/-- The fused heads at (r, q). -/
theorem heads_apply (Wh : FVec Ideal S7x64 .f32) (bh : FVec Ideal S7x1 .f32) (h : FVec Ideal S64x16384 .f32)
    (r : Fin 7) (q : Fin 16384) :
    heads Wh bh h (ix2 r q) = (∑ k : Fin 64, Wh (ix2 r k) * h (ix2 k q)) + bh (ix2 r (0 : Fin 1)) := by
  unfold heads
  rw [addf_apply, Read2.broadcastTo_a1_ab_apply, shapeCast_self, shapeCast_self]
  rw [show matmul dot_S7x64_S64x16384_S7x16384_1_0_0_1_n_n none Wh h (constant S7x16384 .f32 0x00000000#32) (ix2 r q) = _ from
    PlainDot.matmul_zero_apply dot_S7x64_S64x16384_S7x16384_1_0_0_1_n_n ⟨rfl, rfl, rfl, rfl, rfl, rfl⟩ none Wh h r q]

/-- The edge rows at (e, q): column q's four rectified values, clipped. -/
theorem muPart_apply (v : FVec Ideal S4x16384 .f32) (e : Fin 4) (q : Fin 16384) :
    muPart v (ix2 e q) = clip (fun e' => relu (v (ix2 e' q))) e := by
  unfold muPart
  simp only [mulf_apply, maximumf_apply, broadcast_apply, broadcastTo_1b_ab_apply, select_apply, cmpf_apply, divf_apply,
    addf_apply, subf_apply, sqrt_apply, slice2_axis0_eq]
  rfl

/-- The state rows at (s, q): column q's three values over their length plus eps. -/
theorem lamPart_apply (v : FVec Ideal S3x16384 .f32) (s : Fin 3) (q : Fin 16384) :
    lamPart v (ix2 s q) = unit (fun s' => v (ix2 s' q)) s := by
  unfold lamPart
  simp only [mulf_apply, broadcast_apply, broadcastTo_1b_ab_apply, divf_apply, addf_apply, sqrt_apply, slice2_axis0_eq]
  rfl

end AtIdeal

/-! ## The stored block against the network -/

/-- The staged operands hold the network's weights: each matrix transposed (output axis first), each bias as a
    column, the two heads stacked (edge rows 0–3, state rows 4–6). -/
structure Staged (P : Net) (x1 : FVec Ideal S64x2 .f32) (x2 : FVec Ideal S64x1 .f32) (x3 : FVec Ideal S64x64 .f32)
    (x4 : FVec Ideal S64x1 .f32) (x5 : FVec Ideal S64x64 .f32) (x6 : FVec Ideal S64x1 .f32) (x7 : FVec Ideal S7x64 .f32)
    (x8 : FVec Ideal S7x1 .f32) : Prop where
  W1 : ∀ (j : Fin 64) (k : Fin 2), x1 (ix2 j k) = P.W1 (ix2 k j)
  b1 : ∀ j : Fin 64, x2 (ix2 j (0 : Fin 1)) = P.b1 (ix1 j)
  W2 : ∀ j k : Fin 64, x3 (ix2 j k) = P.W2 (ix2 k j)
  b2 : ∀ j : Fin 64, x4 (ix2 j (0 : Fin 1)) = P.b2 (ix1 j)
  W3 : ∀ j k : Fin 64, x5 (ix2 j k) = P.W3 (ix2 k j)
  b3 : ∀ j : Fin 64, x6 (ix2 j (0 : Fin 1)) = P.b3 (ix1 j)
  Wmu : ∀ (r : Fin 7) (e : Fin 4) (k : Fin 64), r.val = e.val → x7 (ix2 r k) = P.Wmu (ix2 k e)
  bmu : ∀ (r : Fin 7) (e : Fin 4), r.val = e.val → x8 (ix2 r (0 : Fin 1)) = P.bmu (ix1 e)
  Wlam : ∀ (r : Fin 7) (s : Fin 3) (k : Fin 64), r.val = 4 + s.val → x7 (ix2 r k) = P.Wlam (ix2 k s)
  blam : ∀ (r : Fin 7) (s : Fin 3), r.val = 4 + s.val → x8 (ix2 r (0 : Fin 1)) = P.blam (ix1 s)

section Stored
variable {P : Net} {x1 : FVec Ideal S64x2 .f32} {x2 : FVec Ideal S64x1 .f32} {x3 : FVec Ideal S64x64 .f32}
  {x4 : FVec Ideal S64x1 .f32} {x5 : FVec Ideal S64x64 .f32} {x6 : FVec Ideal S64x1 .f32} {x7 : FVec Ideal S7x64 .f32}
  {x8 : FVec Ideal S7x1 .f32} (hS : Staged P x1 x2 x3 x4 x5 x6 x7 x8) (x0 : FVec Ideal S2x16384 .f32)

include hS

/-- The first hidden layer of column q. -/
theorem hidden1 (j : Fin 64) (q : Fin 16384) :
    layer1 (F := Ideal) x0 x1 x2 (ix2 j q) = hid1 P (x0 (ix2 (0 : Fin 2) q)) (x0 (ix2 (1 : Fin 2) q)) j := by
  rw [layer1_apply, hS.W1, hS.W1, hS.b1]
  unfold hid1 relu
  rw [mul_comm (P.W1 (ix2 (0 : Fin 2) j)), mul_comm (P.W1 (ix2 (1 : Fin 2) j))]

/-- The second. -/
theorem hidden2 (j : Fin 64) (q : Fin 16384) :
    layerH (F := Ideal) x3 x4 (layer1 x0 x1 x2) (ix2 j q) = hid2 P (x0 (ix2 (0 : Fin 2) q)) (x0 (ix2 (1 : Fin 2) q)) j := by
  rw [layerH_apply, hS.b2]
  unfold hid2 relu dense
  refine congrArg (fun s => max (s + P.b2 (ix1 j)) c0) (Finset.sum_congr rfl fun k _ => ?_)
  rw [hS.W2, hidden1 hS, mul_comm]

/-- The third. -/
theorem hidden3 (j : Fin 64) (q : Fin 16384) :
    layerH (F := Ideal) x5 x6 (layerH x3 x4 (layer1 x0 x1 x2)) (ix2 j q) = hid3 P (x0 (ix2 (0 : Fin 2) q)) (x0 (ix2 (1 : Fin 2) q)) j := by
  rw [layerH_apply, hS.b3]
  unfold hid3 relu dense
  refine congrArg (fun s => max (s + P.b3 (ix1 j)) c0) (Finset.sum_congr rfl fun k _ => ?_)
  rw [hS.W3, hidden2 hS, mul_comm]

/-- An edge row of the heads' result. -/
theorem heads_mu (r : Fin 7) (e : Fin 4) (hr : r.val = e.val) (q : Fin 16384) :
    heads (F := Ideal) x7 x8 (layerH x5 x6 (layerH x3 x4 (layer1 x0 x1 x2))) (ix2 r q)
      = dense P.Wmu P.bmu (hid3 P (x0 (ix2 (0 : Fin 2) q)) (x0 (ix2 (1 : Fin 2) q))) e := by
  rw [heads_apply, hS.bmu r e hr]
  unfold dense
  refine congrArg (fun s => s + P.bmu (ix1 e)) (Finset.sum_congr rfl fun k _ => ?_)
  rw [hS.Wmu r e k hr, hidden3 hS, mul_comm]

/-- A state row of the heads' result. -/
theorem heads_lam (r : Fin 7) (s : Fin 3) (hr : r.val = 4 + s.val) (q : Fin 16384) :
    heads (F := Ideal) x7 x8 (layerH x5 x6 (layerH x3 x4 (layer1 x0 x1 x2))) (ix2 r q)
      = lamLin P (x0 (ix2 (0 : Fin 2) q)) (x0 (ix2 (1 : Fin 2) q)) s := by
  rw [heads_apply, hS.blam r s hr]
  unfold lamLin dense
  refine congrArg (fun t => t + P.blam (ix1 s)) (Finset.sum_congr rfl fun k _ => ?_)
  rw [hS.Wlam r s k hr, hidden3 hS, mul_comm]

/-- Rows 0–3 of the stored block: the clipped edge values of column q's point. -/
theorem stored_mu (r : Fin 7) (e : Fin 4) (hr : r.val = e.val) (q : Fin 16384) :
    k0_pay1 (F := Ideal) (k0_pay2 x0 x1 x2 x3 x4 x5 x6) x7 x8 (ix2 r q)
      = muOut P (x0 (ix2 (0 : Fin 2) q)) (x0 (ix2 (1 : Fin 2) q)) e := by
  rw [pay1_eq, pay2_eq, Read2.concat_rows_upper _ _ _ r q e hr.symm, muPart_apply]
  unfold muOut
  refine congrArg (fun f => clip f e) (funext fun e' => ?_)
  rw [slice2_axis0_eq, heads_mu hS x0 _ e' (Nat.zero_add _)]
  rfl

/-- Rows 4–6: the normalized state values. -/
theorem stored_lam (r : Fin 7) (s : Fin 3) (hr : r.val = 4 + s.val) (q : Fin 16384) :
    k0_pay1 (F := Ideal) (k0_pay2 x0 x1 x2 x3 x4 x5 x6) x7 x8 (ix2 r q)
      = lamOut P (x0 (ix2 (0 : Fin 2) q)) (x0 (ix2 (1 : Fin 2) q)) s := by
  rw [pay1_eq, pay2_eq, Read2.concat_rows_lower _ _ _ r q s (by omega), lamPart_apply]
  unfold lamOut
  refine congrArg (fun f => unit f s) (funext fun s' => ?_)
  rw [slice2_axis0_eq, heads_lam hS x0 _ s' rfl]

end Stored

end Cert.KernelIdeal.Body

end
-- ==== Proof.KHost.lean ====
/-
  The arrays the region finds, as the host lines before it leave them: the cloud transposed and padded with zero
  columns, each weight matrix transposed, the two heads' matrices stacked, each bias as a column.
-/
import proofs.«414268_j89300960018671_3_alg».proof.Proof.Gen.KernelIdeal.Frame
import proofs.«414268_j89300960018671_3_alg».proof.Proof.Spec
import proofs.«414268_j89300960018671_3_alg».proof.Proof.LibRead2
import Idealize.ShloMosaic.Lib.ValueLayout
import Idealize.ShloMosaic.Lib.KernelVsHost
import Idealize.ShloMosaic.Lib.StableHlo.Run

noncomputable section

namespace Cert.KernelIdeal.Host

open Idealize.ShloMosaic Idealize.ShloMosaic.TcCoe Idealize.ShloMosaic.ValueIdx Idealize.SL.Sem Idealize.ShloMosaic.StableHlo
open Cert.KernelIdeal Cert.KernelIdeal.Gen HardProj

variable (m : (ℓ : Loc nD τ sig) → Buf (Elt Ideal) ℓ)

/-- The transposed first-layer matrix. -/
theorem V_v2 (c : Dev nD) : (V m c main_v2 : S64x2.Idx → EReal)
    = transpose S64x2 [1, 0] (m ((c : Thread nD τ).loc main_arg1)) transposes_S2x64_S64x2_1_0 := by
  dsimp only [V, V0]
  simp only [hostOps0, hostOps0_1, hostOps0_2, List.flatten_cons, List.flatten_nil, List.append_nil, List.cons_append,
    List.nil_append]
  after_results

/-- The padded, transposed cloud. -/
theorem V_v1 (c : Dev nD) : (V m c main_v1 : S2x1015808.Idx → EReal)
    = pad S2x1015808 ![0, 0] ![0, 15808] ![0, 0]
        (transpose S2x1000000 [1, 0] (m ((c : Thread nD τ).loc main_arg0)) transposes_S1000000x2_S2x1000000_1_0)
        (sitofp (F := Ideal) .f32 (constantI S_ 32 0#32)) pads_S2x1000000_S2x1015808_000_0158080 h_S_ := by
  dsimp only [V, V0]
  simp only [hostOps0, hostOps0_1, hostOps0_2, List.flatten_cons, List.flatten_nil, List.append_nil, List.cons_append,
    List.nil_append]
  after_results
  rfl

/-- The transposed second- and third-layer matrices. -/
theorem V_v3 (c : Dev nD) : (V m c main_v3 : S64x64.Idx → EReal)
    = transpose S64x64 [1, 0] (m ((c : Thread nD τ).loc main_arg3)) transposes_S64x64_S64x64_1_0 := by
  dsimp only [V, V0]
  simp only [hostOps0, hostOps0_1, hostOps0_2, List.flatten_cons, List.flatten_nil, List.append_nil, List.cons_append,
    List.nil_append]
  after_results

theorem V_v4 (c : Dev nD) : (V m c main_v4 : S64x64.Idx → EReal)
    = transpose S64x64 [1, 0] (m ((c : Thread nD τ).loc main_arg5)) transposes_S64x64_S64x64_1_0 := by
  dsimp only [V, V0]
  simp only [hostOps0, hostOps0_1, hostOps0_2, List.flatten_cons, List.flatten_nil, List.append_nil, List.cons_append,
    List.nil_append]
  after_results

/-- The two heads' matrices, each transposed, stacked. -/
theorem V_v7 (c : Dev nD) : (V m c main_v7 : S7x64.Idx → EReal)
    = concatenate S7x64 0
        [⟨S4x64, transpose S4x64 [1, 0] (m ((c : Thread nD τ).loc main_arg7)) transposes_S64x4_S4x64_1_0⟩,
         ⟨S3x64, transpose S3x64 [1, 0] (m ((c : Thread nD τ).loc main_arg9)) transposes_S64x3_S3x64_1_0⟩]
        concatenates_S4x64_S3x64_S7x64_d0 := by
  dsimp only [V, V0]
  simp only [hostOps0, hostOps0_1, hostOps0_2, List.flatten_cons, List.flatten_nil, List.append_nil, List.cons_append,
    List.nil_append]
  after_results

/-- The two heads' biases, joined and laid as a column. -/
theorem V_v9 (c : Dev nD) : (V m c main_v9 : S7x1.Idx → EReal)
    = shapeCast S7x1 (concatenate S7 0 [⟨S4, m ((c : Thread nD τ).loc main_arg8)⟩, ⟨S3, m ((c : Thread nD τ).loc main_arg10)⟩]
        concatenates_S4_S3_S7_d0) shapeCasts_S7_S7x1 := by
  dsimp only [V, V0]
  simp only [hostOps0, hostOps0_1, hostOps0_2, List.flatten_cons, List.flatten_nil, List.append_nil, List.cons_append,
    List.nil_append]
  after_results
  rfl

/-- The three layers' biases as columns. -/
theorem V_v10 (c : Dev nD) : (V m c main_v10 : S64x1.Idx → EReal)
    = shapeCast S64x1 (m ((c : Thread nD τ).loc main_arg2)) shapeCasts_S64_S64x1 := by
  dsimp only [V, V0]
  simp only [hostOps0, hostOps0_1, hostOps0_2, List.flatten_cons, List.flatten_nil, List.append_nil, List.cons_append,
    List.nil_append]
  after_results
  rfl

theorem V_v11 (c : Dev nD) : (V m c main_v11 : S64x1.Idx → EReal)
    = shapeCast S64x1 (m ((c : Thread nD τ).loc main_arg4)) shapeCasts_S64_S64x1 := by
  dsimp only [V, V0]
  simp only [hostOps0, hostOps0_1, hostOps0_2, List.flatten_cons, List.flatten_nil, List.append_nil, List.cons_append,
    List.nil_append]
  after_results
  rfl

theorem V_v12 (c : Dev nD) : (V m c main_v12 : S64x1.Idx → EReal)
    = shapeCast S64x1 (m ((c : Thread nD τ).loc main_arg6)) shapeCasts_S64_S64x1 := by
  dsimp only [V, V0]
  simp only [hostOps0, hostOps0_1, hostOps0_2, List.flatten_cons, List.flatten_nil, List.append_nil, List.cons_append,
    List.nil_append]
  after_results
  rfl

/-! ## Those arrays at an entry -/

/-- Column n of the padded cloud, for n inside the cloud, is point n. -/
theorem v1_apply (c : Dev nD) (k : Fin 2) (n : Fin 1015808) (n' : Fin 1000000) (hn : n.val = n'.val) :
    (V m c main_v1 : S2x1015808.Idx → EReal) (ix2 k n)
      = (m ((c : Thread nD τ).loc main_arg0) : S1000000x2.Idx → EReal) (ix2 n' k) := by
  rw [V_v1, pad_apply_of_inside _ _ _ _ _ _ _ (ix2 k n) (ix2 k n') (fun a => match a with
    | ⟨0, _⟩ => by show k.val = 0 + k.val * (0 + 1); omega
    | ⟨1, _⟩ => by show n.val = 0 + n'.val * (0 + 1); omega)]
  exact transpose_ix2_apply _ _ k n'

theorem v2_apply (c : Dev nD) (j : Fin 64) (k : Fin 2) :
    (V m c main_v2 : S64x2.Idx → EReal) (ix2 j k) = (m ((c : Thread nD τ).loc main_arg1) : S2x64.Idx → EReal) (ix2 k j) := by
  rw [V_v2]; exact transpose_ix2_apply _ _ j k

theorem v3_apply (c : Dev nD) (j k : Fin 64) :
    (V m c main_v3 : S64x64.Idx → EReal) (ix2 j k) = (m ((c : Thread nD τ).loc main_arg3) : S64x64.Idx → EReal) (ix2 k j) := by
  rw [V_v3]; exact transpose_ix2_apply _ _ j k

theorem v4_apply (c : Dev nD) (j k : Fin 64) :
    (V m c main_v4 : S64x64.Idx → EReal) (ix2 j k) = (m ((c : Thread nD τ).loc main_arg5) : S64x64.Idx → EReal) (ix2 k j) := by
  rw [V_v4]; exact transpose_ix2_apply _ _ j k

/-- Rows 0–3 of the stacked heads are the edge head's columns. -/
theorem v7_mu (c : Dev nD) (r : Fin 7) (e : Fin 4) (k : Fin 64) (hr : r.val = e.val) :
    (V m c main_v7 : S7x64.Idx → EReal) (ix2 r k) = (m ((c : Thread nD τ).loc main_arg7) : S64x4.Idx → EReal) (ix2 k e) := by
  rw [V_v7, Read2.concat_rows_upper _ _ _ r k e hr.symm]; exact transpose_ix2_apply _ _ e k

/-- Rows 4–6 the state head's. -/
theorem v7_lam (c : Dev nD) (r : Fin 7) (s : Fin 3) (k : Fin 64) (hr : r.val = 4 + s.val) :
    (V m c main_v7 : S7x64.Idx → EReal) (ix2 r k) = (m ((c : Thread nD τ).loc main_arg9) : S64x3.Idx → EReal) (ix2 k s) := by
  rw [V_v7, Read2.concat_rows_lower _ _ _ r k s (by omega)]; exact transpose_ix2_apply _ _ s k

theorem v9_mu (c : Dev nD) (r : Fin 7) (e : Fin 4) (hr : r.val = e.val) :
    (V m c main_v9 : S7x1.Idx → EReal) (ix2 r (0 : Fin 1)) = (m ((c : Thread nD τ).loc main_arg8) : S4.Idx → EReal) (ix1 e) := by
  rw [V_v9, Read2.shapeCast_a_a1_apply, Read2.concat_vec_first _ _ _ r e hr.symm]

theorem v9_lam (c : Dev nD) (r : Fin 7) (s : Fin 3) (hr : r.val = 4 + s.val) :
    (V m c main_v9 : S7x1.Idx → EReal) (ix2 r (0 : Fin 1)) = (m ((c : Thread nD τ).loc main_arg10) : S3.Idx → EReal) (ix1 s) := by
  rw [V_v9, Read2.shapeCast_a_a1_apply, Read2.concat_vec_second _ _ _ r s (by omega)]

theorem v10_apply (c : Dev nD) (j : Fin 64) :
    (V m c main_v10 : S64x1.Idx → EReal) (ix2 j (0 : Fin 1)) = (m ((c : Thread nD τ).loc main_arg2) : S64.Idx → EReal) (ix1 j) := by
  rw [V_v10, Read2.shapeCast_a_a1_apply]

theorem v11_apply (c : Dev nD) (j : Fin 64) :
    (V m c main_v11 : S64x1.Idx → EReal) (ix2 j (0 : Fin 1)) = (m ((c : Thread nD τ).loc main_arg4) : S64.Idx → EReal) (ix1 j) := by
  rw [V_v11, Read2.shapeCast_a_a1_apply]

theorem v12_apply (c : Dev nD) (j : Fin 64) :
    (V m c main_v12 : S64x1.Idx → EReal) (ix2 j (0 : Fin 1)) = (m ((c : Thread nD τ).loc main_arg6) : S64.Idx → EReal) (ix1 j) := by
  rw [V_v12, Read2.shapeCast_a_a1_apply]

end Cert.KernelIdeal.Host

end
-- ==== Proof.SpecArr.lean ====
/-
  The two result arrays as functions of the cloud and the weights: entry (e, n) of the first is the e-th clipped edge
  value of point n, entry (s, n) of the second its s-th normalized state value.
-/
import proofs.«414268_j89300960018671_3_alg».proof.Proof.Spec

noncomputable section

namespace HardProj

open Idealize.ShloMosaic Idealize.ShloMosaic.ValueIdx

/-- The edge values of every point, one column per point. -/
def muArr (P : Net) (pc : Mat 1000000 2) : Mat 4 1000000 :=
  fun j => muOut P (pc (ix2 (j 1) (0 : Fin 2))) (pc (ix2 (j 1) (1 : Fin 2))) (j 0)

/-- The state values of every point, one column per point. -/
def lamArr (P : Net) (pc : Mat 1000000 2) : Mat 3 1000000 :=
  fun j => lamOut P (pc (ix2 (j 1) (0 : Fin 2))) (pc (ix2 (j 1) (1 : Fin 2))) (j 0)

theorem muArr_apply (P : Net) (pc : Mat 1000000 2) (e : Fin 4) (n : Fin 1000000) :
    muArr P pc (ix2 e n) = muOut P (pc (ix2 n (0 : Fin 2))) (pc (ix2 n (1 : Fin 2))) e := rfl

theorem lamArr_apply (P : Net) (pc : Mat 1000000 2) (s : Fin 3) (n : Fin 1000000) :
    lamArr P pc (ix2 s n) = lamOut P (pc (ix2 n (0 : Fin 2))) (pc (ix2 n (1 : Fin 2))) s := rfl

end HardProj

end
-- ==== Proof.KArray.lean ====
/-
  The kernel's result array, entry by entry, and its run.

  The grid has 62 points; point t works on columns 16384·t … 16384·t + 16383 of the padded cloud and writes the same
  columns of the 7 × 1015808 result, every other operand being staged whole. So the result array is one function of
  the padded cloud and the weights: column n holds the seven outputs of the network at the point in column n. The
  two results of the program are the first 1000000 columns of its rows 0–3 and of its rows 4–6, where the padded
  cloud is the cloud itself.
-/
import proofs.«414268_j89300960018671_3_alg».proof.Proof.Gen.KernelIdeal.Frame
import proofs.«414268_j89300960018671_3_alg».proof.Proof.KBody
import proofs.«414268_j89300960018671_3_alg».proof.Proof.KHost
import proofs.«414268_j89300960018671_3_alg».proof.Proof.SpecArr
import Idealize.ShloMosaic.Lib.Pipeline.Value

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat)
open Idealize.ShloMosaic.StableHlo (after_cons after_nil)
open Cert.KernelIdeal Cert.KernelIdeal.Gen Cert.KernelIdeal.Body HardProj

variable (m : (ℓ : Loc nD τ sig) → Buf (Elt Ideal) ℓ) (ρ : Dev nD → PrngReg)

theorem hz : (![0, 0] : Fin 2 → Nat) = fun _ => 0 := funext fun a => by fin_cases a <;> rfl

/-- The network a core is launched with: the ten weight arrays as they are at launch. -/
def net (c : Dev nD) : Net where
  W1 := m ((c : Thread nD τ).loc main_arg1)
  b1 := m ((c : Thread nD τ).loc main_arg2)
  W2 := m ((c : Thread nD τ).loc main_arg3)
  b2 := m ((c : Thread nD τ).loc main_arg4)
  W3 := m ((c : Thread nD τ).loc main_arg5)
  b3 := m ((c : Thread nD τ).loc main_arg6)
  Wmu := m ((c : Thread nD τ).loc main_arg7)
  bmu := m ((c : Thread nD τ).loc main_arg8)
  Wlam := m ((c : Thread nD τ).loc main_arg9)
  blam := m ((c : Thread nD τ).loc main_arg10)

/-! ## The windows' blocks -/

/-- The printed index maps, decided over the grid: the cloud's and the result's windows move along the columns with
    the point, every other window stays at block (0, 0). -/
theorem idx_facts : ∀ t : Fin cfg0.N,
    (win0_0.index t (0 : Fin 2) = 0 ∧ win0_0.index t (1 : Fin 2) = t.val)
    ∧ (win0_9.index t (0 : Fin 2) = 0 ∧ win0_9.index t (1 : Fin 2) = t.val)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The cloud's block at point t: columns 16384·t … of the padded cloud. -/
abbrev blk0 (c : Dev nD) (t : Fin cfg0.N) : FVec Ideal S2x16384 .f32 := iblk m c 0 t
theorem blk0_apply (c : Dev nD) (t : Fin cfg0.N) (k : Fin 2) (q : Fin 16384) (n : Fin 1015808)
    (hn : n.val = t.val * 16384 + q.val) :
    blk0 m c t (ix2 k q) = (V m c main_v1 : S2x1015808.Idx → EReal) (ix2 k n) := by
  have hf := (idx_facts t).1
  unfold blk0 iblk
  rw [View.read_apply]
  show V m c main_v1 _ = V m c main_v1 _
  congr 1
  funext a; apply Fin.ext
  match a with
  | ⟨0, _⟩ => show win0_0.index t (0 : Fin 2) * 2 + 1 * k.val = k.val; rw [hf.1]; omega
  | ⟨1, _⟩ => show win0_0.index t (1 : Fin 2) * 16384 + 1 * q.val = n.val; rw [hf.2, hn]; omega

/-- Windows 1 to 8 stage their whole arrays at every point: the first-layer matrix, then bias column and matrix by
    turns, last the stacked heads and their bias column. -/
abbrev blk1 (c : Dev nD) (t : Fin cfg0.N) : FVec Ideal S64x2 .f32 := iblk m c 1 t
abbrev blk2 (c : Dev nD) (t : Fin cfg0.N) : FVec Ideal S64x1 .f32 := iblk m c 2 t
abbrev blk3 (c : Dev nD) (t : Fin cfg0.N) : FVec Ideal S64x64 .f32 := iblk m c 3 t
abbrev blk4 (c : Dev nD) (t : Fin cfg0.N) : FVec Ideal S64x1 .f32 := iblk m c 4 t
abbrev blk5 (c : Dev nD) (t : Fin cfg0.N) : FVec Ideal S64x64 .f32 := iblk m c 5 t
abbrev blk6 (c : Dev nD) (t : Fin cfg0.N) : FVec Ideal S64x1 .f32 := iblk m c 6 t
abbrev blk7 (c : Dev nD) (t : Fin cfg0.N) : FVec Ideal S7x64 .f32 := iblk m c 7 t
abbrev blk8 (c : Dev nD) (t : Fin cfg0.N) : FVec Ideal S7x1 .f32 := iblk m c 8 t

theorem blk1_apply (c : Dev nD) (t : Fin cfg0.N) (p : Fin 64) (q : Fin 2) :
    blk1 m c t (ix2 p q) = (V m c main_v2 : S64x2.Idx → EReal) (ix2 p q) := by
  have hf := (idx_facts t).2.2.1
  unfold blk1 iblk
  rw [View.read_apply]
  show V m c main_v2 _ = V m c main_v2 _
  congr 1
  funext a; apply Fin.ext
  match a with
  | ⟨0, _⟩ => show win0_1.index t (0 : Fin 2) * 64 + 1 * p.val = p.val; rw [hf.1]; omega
  | ⟨1, _⟩ => show win0_1.index t (1 : Fin 2) * 2 + 1 * q.val = q.val; rw [hf.2]; omega

theorem blk2_apply (c : Dev nD) (t : Fin cfg0.N) (p : Fin 64) (q : Fin 1) :
    blk2 m c t (ix2 p q) = (V m c main_v10 : S64x1.Idx → EReal) (ix2 p q) := by
  have hf := (idx_facts t).2.2.2.1
  unfold blk2 iblk
  rw [View.read_apply]
  show V m c main_v10 _ = V m c main_v10 _
  congr 1
  funext a; apply Fin.ext
  match a with
  | ⟨0, _⟩ => show win0_2.index t (0 : Fin 2) * 64 + 1 * p.val = p.val; rw [hf.1]; omega
  | ⟨1, _⟩ => show win0_2.index t (1 : Fin 2) * 1 + 1 * q.val = q.val; rw [hf.2]; omega

theorem blk3_apply (c : Dev nD) (t : Fin cfg0.N) (p : Fin 64) (q : Fin 64) :
    blk3 m c t (ix2 p q) = (V m c main_v3 : S64x64.Idx → EReal) (ix2 p q) := by
  have hf := (idx_facts t).2.2.2.2.1
  unfold blk3 iblk
  rw [View.read_apply]
  show V m c main_v3 _ = V m c main_v3 _
  congr 1
  funext a; apply Fin.ext
  match a with
  | ⟨0, _⟩ => show win0_3.index t (0 : Fin 2) * 64 + 1 * p.val = p.val; rw [hf.1]; omega
  | ⟨1, _⟩ => show win0_3.index t (1 : Fin 2) * 64 + 1 * q.val = q.val; rw [hf.2]; omega

theorem blk4_apply (c : Dev nD) (t : Fin cfg0.N) (p : Fin 64) (q : Fin 1) :
    blk4 m c t (ix2 p q) = (V m c main_v11 : S64x1.Idx → EReal) (ix2 p q) := by
  have hf := (idx_facts t).2.2.2.2.2.1
  unfold blk4 iblk
  rw [View.read_apply]
  show V m c main_v11 _ = V m c main_v11 _
  congr 1
  funext a; apply Fin.ext
  match a with
  | ⟨0, _⟩ => show win0_4.index t (0 : Fin 2) * 64 + 1 * p.val = p.val; rw [hf.1]; omega
  | ⟨1, _⟩ => show win0_4.index t (1 : Fin 2) * 1 + 1 * q.val = q.val; rw [hf.2]; omega

theorem blk5_apply (c : Dev nD) (t : Fin cfg0.N) (p : Fin 64) (q : Fin 64) :
    blk5 m c t (ix2 p q) = (V m c main_v4 : S64x64.Idx → EReal) (ix2 p q) := by
  have hf := (idx_facts t).2.2.2.2.2.2.1
  unfold blk5 iblk
  rw [View.read_apply]
  show V m c main_v4 _ = V m c main_v4 _
  congr 1
  funext a; apply Fin.ext
  match a with
  | ⟨0, _⟩ => show win0_5.index t (0 : Fin 2) * 64 + 1 * p.val = p.val; rw [hf.1]; omega
  | ⟨1, _⟩ => show win0_5.index t (1 : Fin 2) * 64 + 1 * q.val = q.val; rw [hf.2]; omega

theorem blk6_apply (c : Dev nD) (t : Fin cfg0.N) (p : Fin 64) (q : Fin 1) :
    blk6 m c t (ix2 p q) = (V m c main_v12 : S64x1.Idx → EReal) (ix2 p q) := by
  have hf := (idx_facts t).2.2.2.2.2.2.2.1
  unfold blk6 iblk
  rw [View.read_apply]
  show V m c main_v12 _ = V m c main_v12 _
  congr 1
  funext a; apply Fin.ext
  match a with
  | ⟨0, _⟩ => show win0_6.index t (0 : Fin 2) * 64 + 1 * p.val = p.val; rw [hf.1]; omega
  | ⟨1, _⟩ => show win0_6.index t (1 : Fin 2) * 1 + 1 * q.val = q.val; rw [hf.2]; omega

theorem blk7_apply (c : Dev nD) (t : Fin cfg0.N) (p : Fin 7) (q : Fin 64) :
    blk7 m c t (ix2 p q) = (V m c main_v7 : S7x64.Idx → EReal) (ix2 p q) := by
  have hf := (idx_facts t).2.2.2.2.2.2.2.2.1
  unfold blk7 iblk
  rw [View.read_apply]
  show V m c main_v7 _ = V m c main_v7 _
  congr 1
  funext a; apply Fin.ext
  match a with
  | ⟨0, _⟩ => show win0_7.index t (0 : Fin 2) * 7 + 1 * p.val = p.val; rw [hf.1]; omega
  | ⟨1, _⟩ => show win0_7.index t (1 : Fin 2) * 64 + 1 * q.val = q.val; rw [hf.2]; omega

theorem blk8_apply (c : Dev nD) (t : Fin cfg0.N) (p : Fin 7) (q : Fin 1) :
    blk8 m c t (ix2 p q) = (V m c main_v9 : S7x1.Idx → EReal) (ix2 p q) := by
  have hf := (idx_facts t).2.2.2.2.2.2.2.2.2
  unfold blk8 iblk
  rw [View.read_apply]
  show V m c main_v9 _ = V m c main_v9 _
  congr 1
  funext a; apply Fin.ext
  match a with
  | ⟨0, _⟩ => show win0_8.index t (0 : Fin 2) * 7 + 1 * p.val = p.val; rw [hf.1]; omega
  | ⟨1, _⟩ => show win0_8.index t (1 : Fin 2) * 1 + 1 * q.val = q.val; rw [hf.2]; omega

/-- So at every point the staged operands hold the launched network's weights, transposed. -/
theorem staged (c : Dev nD) (t : Fin cfg0.N) :
    Staged (net m c) (blk1 m c t) (blk2 m c t) (blk3 m c t) (blk4 m c t) (blk5 m c t) (blk6 m c t) (blk7 m c t) (blk8 m c t) where
  W1 j k := by rw [blk1_apply, Host.v2_apply]; rfl
  b1 j := by rw [blk2_apply, Host.v10_apply]; rfl
  W2 j k := by rw [blk3_apply, Host.v3_apply]; rfl
  b2 j := by rw [blk4_apply, Host.v11_apply]; rfl
  W3 j k := by rw [blk5_apply, Host.v4_apply]; rfl
  b3 j := by rw [blk6_apply, Host.v12_apply]; rfl
  Wmu r e k hr := by rw [blk7_apply, Host.v7_mu m c r e k hr]; rfl
  bmu r e hr := by rw [blk8_apply, Host.v9_mu m c r e hr]; rfl
  Wlam r s k hr := by rw [blk7_apply, Host.v7_lam m c r s k hr]; rfl
  blam r s hr := by rw [blk8_apply, Host.v9_lam m c r s hr]; rfl

/-! ## The result array as one function -/

/-- The padded cloud, as the region finds it. -/
abbrev xpad (c : Dev nD) : S2x1015808.Idx → EReal := V m c main_v1

/-- Entry (r, n) of the result array: output r of the network at the point in column n of the padded cloud. -/
def Gc (c : Dev nD) (r : Fin 7) (n : Fin 1015808) : EReal :=
  if h : r.val < 4 then
    muOut (net m c) (xpad m c (ix2 (0 : Fin 2) n)) (xpad m c (ix2 (1 : Fin 2) n)) ⟨r.val, h⟩
  else
    lamOut (net m c) (xpad m c (ix2 (0 : Fin 2) n)) (xpad m c (ix2 (1 : Fin 2) n)) ⟨r.val - 4, by have := r.isLt; omega⟩

/-- The whole array. -/
def G (c : Dev nD) : S7x1015808.Idx → EReal := fun i => Gc m c (i 0) (i 1)

theorem Gc_mu (c : Dev nD) (r : Fin 7) (n : Fin 1015808) (e : Fin 4) (hr : r.val = e.val) :
    Gc m c r n = muOut (net m c) (xpad m c (ix2 (0 : Fin 2) n)) (xpad m c (ix2 (1 : Fin 2) n)) e := by
  unfold Gc
  rw [dif_pos (by have := e.isLt; omega)]
  exact congrArg _ (Fin.ext hr)

theorem Gc_lam (c : Dev nD) (r : Fin 7) (n : Fin 1015808) (s : Fin 3) (hr : r.val = 4 + s.val) :
    Gc m c r n = lamOut (net m c) (xpad m c (ix2 (0 : Fin 2) n)) (xpad m c (ix2 (1 : Fin 2) n)) s := by
  unfold Gc
  rw [dif_neg (by omega)]
  exact congrArg _ (Fin.ext (by show r.val - 4 = s.val; omega))

/-- The body's stored block at point t, entry (r, q), is the array's function at (r, 16384·t + q). -/
theorem stored_eq (c : Dev nD) (t : Fin cfg0.N) (r : Fin 7) (q : Fin 16384) (n : Fin 1015808)
    (hn : n.val = t.val * 16384 + q.val) :
    k0_pay1 (F := Ideal) (k0_pay2 (blk0 m c t) (blk1 m c t) (blk2 m c t) (blk3 m c t) (blk4 m c t) (blk5 m c t) (blk6 m c t))
        (blk7 m c t) (blk8 m c t) (ix2 r q) = Gc m c r n := by
  by_cases h : r.val < 4
  · rw [stored_mu (staged m c t) (blk0 m c t) r ⟨r.val, h⟩ rfl q, Gc_mu m c r n ⟨r.val, h⟩ rfl,
      blk0_apply m c t (0 : Fin 2) q n hn, blk0_apply m c t (1 : Fin 2) q n hn]
  · have h7 := r.isLt
    rw [stored_lam (staged m c t) (blk0 m c t) r ⟨r.val - 4, by omega⟩ (by show r.val = 4 + (r.val - 4); omega) q,
      Gc_lam m c r n ⟨r.val - 4, by omega⟩ (by show r.val = 4 + (r.val - 4); omega),
      blk0_apply m c t (0 : Fin 2) q n hn, blk0_apply m c t (1 : Fin 2) q n hn]

/-- WHAT POINT t WRITES BACK is block t of `G`. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  unfold out0_9
  rw [View.canon_unit_zero hz]
  simp only [View.ld_unit_zero (S := S2x16384) hz, View.ld_unit_zero (S := S64x2) hz, View.ld_unit_zero (S := S64x1) hz,
    View.ld_unit_zero (S := S64x64) hz, View.ld_unit_zero (S := S7x64) hz, View.ld_unit_zero (S := S7x1) hz]
  have hf := (idx_facts t).2.1
  have ht : t.val < 62 := Nat.lt_of_lt_of_eq t.isLt N_0
  funext j
  obtain ⟨r, q, rfl⟩ : ∃ (r : Fin 7) (q : Fin 16384), j = ix2 r q := ⟨j 0, j 1, eq_ix2 j⟩
  rw [View.read_apply]
  have e0 : (((cfg0.win 9).blk t).view.emb (ix2 r q) : S7x1015808.Idx)
      = ix2 r (⟨t.val * 16384 + q.val, by have := q.isLt; omega⟩ : Fin 1015808) := by
    funext a; apply Fin.ext
    match a with
    | ⟨0, _⟩ => show win0_9.index t (0 : Fin 2) * 7 + 1 * r.val = r.val; rw [hf.1]; omega
    | ⟨1, _⟩ => show win0_9.index t (1 : Fin 2) * 16384 + 1 * q.val = t.val * 16384 + q.val; rw [hf.2]; omega
  rw [e0]
  exact stored_eq m c t r q _ rfl

/-! ## The blocks cover the array -/

/-- An index of the array is in point t's block iff each coordinate is in the block's range on its axis. -/
theorem mem_blk (t : Fin cfg0.N) (i : S7x1015808.Idx) :
    i ∈ ((cfg0.win 9).blk t).view.set ↔ ∀ a : Fin 2, win0_9.index t a * S7x16384.size a ≤ (i a).val
      ∧ (i a).val < win0_9.index t a * S7x16384.size a + S7x16384.size a := by
  show i ∈ ((View.whole main_v13).slice (win0_9.rect t)).set ↔ _
  rw [View.set_slice_whole, Rect.mem_set_unit]
  exact Iff.rfl

/-- Column n lies in the block of point n / 16384. -/
theorem cover (i : S7x1015808.Idx) : ∃ t : Fin cfg0.N, (cfg0.win 9).flush t = true ∧ i ∈ ((cfg0.win 9).blk t).view.set := by
  have hi0 : (i 0).val < 7 := (i 0).isLt
  have hi1 : (i 1).val < 1015808 := (i 1).isLt
  have hN : cfg0.N = 62 := N_0
  have ht : (i 1).val / 16384 < cfg0.N := by rw [hN]; omega
  refine ⟨⟨(i 1).val / 16384, ht⟩, flush0_9 _, ?_⟩
  rw [mem_blk]
  have hf := (idx_facts ⟨(i 1).val / 16384, ht⟩).2.1
  intro a
  match a with
  | ⟨0, _⟩ =>
    show win0_9.index ⟨(i 1).val / 16384, ht⟩ (0 : Fin 2) * 7 ≤ (i 0).val
      ∧ (i 0).val < win0_9.index ⟨(i 1).val / 16384, ht⟩ (0 : Fin 2) * 7 + 7
    rw [hf.1]; omega
  | ⟨1, _⟩ =>
    show win0_9.index ⟨(i 1).val / 16384, ht⟩ (1 : Fin 2) * 16384 ≤ (i 1).val
      ∧ (i 1).val < win0_9.index ⟨(i 1).val / 16384, ht⟩ (1 : Fin 2) * 16384 + 16384
    rw [hf.2]
    show (i 1).val / 16384 * 16384 ≤ (i 1).val ∧ (i 1).val < (i 1).val / 16384 * 16384 + 16384
    omega

/-- THE ARRAY after the run is `G`. -/
theorem final (c : Dev nD) : (dats m 0 c).arrAt 9 cfg0.N = G m c :=
  (dats m 0 c).arrAt_eq_of_cover 9 (G m c) (fun t _ => flushed_eq m c t) cover

/-! ## The two slices after the region -/

/-- The first result: rows 0–3, the first 1000000 columns. -/
theorem tail_mu (c : Dev nD) :
    Pipeline.afterTail₀ cfgs (dats m) 0 (V0 m) [hostOps1] c main_v14
      = extractStridedSlice S4x1000000 ![0, 0] (G m c) slices_S7x1015808_S4x1000000_0_0 := by
  unfold Pipeline.afterTail₀
  show StableHlo.after hostOps1 _ (Proc.devRef .tc main_v14) = _
  after_results
  exact congrArg (fun x => extractStridedSlice S4x1000000 ![0, 0] x slices_S7x1015808_S4x1000000_0_0)
    ((Pipeline.withArrays_arr spec0 launch0.win.arr_inj c (V0 m c) (fun w => (dats m 0 c).arrAt w cfg0.N) 9).trans (final m c))

/-- The second: rows 4–6. -/
theorem tail_lam (c : Dev nD) :
    Pipeline.afterTail₀ cfgs (dats m) 0 (V0 m) [hostOps1] c main_v15
      = extractStridedSlice S3x1000000 ![4, 0] (G m c) slices_S7x1015808_S3x1000000_4_0 := by
  unfold Pipeline.afterTail₀
  show StableHlo.after hostOps1 _ (Proc.devRef .tc main_v15) = _
  after_results
  exact congrArg (fun x => extractStridedSlice S3x1000000 ![4, 0] x slices_S7x1015808_S3x1000000_4_0)
    ((Pipeline.withArrays_arr spec0 launch0.win.arr_inj c (V0 m c) (fun w => (dats m 0 c).arrAt w cfg0.N) 9).trans (final m c))

/-- Rows 0–3 of the array over the cloud's columns are the edge values of the launched cloud's points. -/
theorem mu_eq (c : Dev nD) :
    extractStridedSlice S4x1000000 ![0, 0] (G m c) slices_S7x1015808_S4x1000000_0_0
      = muArr (net m c) (m ((c : Thread nD τ).loc main_arg0)) := by
  funext j
  obtain ⟨e, n, rfl⟩ : ∃ (e : Fin 4) (n : Fin 1000000), j = ix2 e n := ⟨j 0, j 1, eq_ix2 j⟩
  have he := e.isLt
  have hn := n.isLt
  rw [extractStridedSlice_apply ![0, 0] (G m c) _ (ix2 e n)
    (ix2 (⟨e.val, by omega⟩ : Fin 7) (⟨n.val, by omega⟩ : Fin 1015808))
    (fun a => match a with | ⟨0, _⟩ => (Nat.zero_add _).symm | ⟨1, _⟩ => (Nat.zero_add _).symm)]
  show Gc m c _ _ = _
  rw [Gc_mu m c _ _ e rfl]
  unfold xpad
  rw [Host.v1_apply m c (0 : Fin 2) _ n rfl, Host.v1_apply m c (1 : Fin 2) _ n rfl]
  rfl

/-- Rows 4–6 the state values. -/
theorem lam_eq (c : Dev nD) :
    extractStridedSlice S3x1000000 ![4, 0] (G m c) slices_S7x1015808_S3x1000000_4_0
      = lamArr (net m c) (m ((c : Thread nD τ).loc main_arg0)) := by
  funext j
  obtain ⟨s, n, rfl⟩ : ∃ (s : Fin 3) (n : Fin 1000000), j = ix2 s n := ⟨j 0, j 1, eq_ix2 j⟩
  have hs := s.isLt
  have hn := n.isLt
  rw [extractStridedSlice_apply ![4, 0] (G m c) _ (ix2 s n)
    (ix2 (⟨4 + s.val, by omega⟩ : Fin 7) (⟨n.val, by omega⟩ : Fin 1015808))
    (fun a => match a with | ⟨0, _⟩ => rfl | ⟨1, _⟩ => (Nat.zero_add _).symm)]
  show Gc m c _ _ = _
  rw [Gc_lam m c _ _ s rfl]
  unfold xpad
  rw [Host.v1_apply m c (0 : Fin 2) _ n rfl, Host.v1_apply m c (1 : Fin 2) _ n rfl]
  rfl

/-! ## The run, read -/

/-- Every weakly fair execution of the program terminates with its two results at the edge and the state values of the
    launched cloud's points under the launched weights, the arguments unchanged. -/
theorem run : θ_run defs (onTc (τ := τ) (main (F := Ideal))) ⟨m, fun _ => 0, ρ⟩ fun r => ∀ c : Dev nD,
      r.2.mem ((c.tc : Thread nD τ).loc main_v14) = muArr (net m c) (m ((c.tc : Thread nD τ).loc main_arg0))
      ∧ r.2.mem ((c.tc : Thread nD τ).loc main_v15) = lamArr (net m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c).2 main_v14 (Pipeline.mem_restRefs_of main_v14 (by decide) (by decide))).trans ((tail_mu m c).trans (mu_eq m c)),
      ((h c).2 main_v15 (Pipeline.mem_restRefs_of main_v15 (by decide) (by decide))).trans ((tail_lam m c).trans (lam_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Arr

end
-- ==== Proof.RefRun.lean ====
/-
  The reference program, run.

  Its @main is a straight line of 67 host operations once the five small functions it calls (the rectifier twice over
  two shapes, the two Euclidean norms, the selection) are written out at their call sites. Every execution ends with
  each buffer at the operations' composed value of the arguments; the two results are named here layer by layer:
  three rectified affine layers on the cloud, the two heads transposed to rows, the edge rows scaled by the clipping
  factor of their column, the state rows divided by their column's length plus eps.
-/
import proofs.«414268_j89300960018671_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-- @main's operations in order, the called functions written out at their calls. -/
abbrev ops : List (HloOp τ sig (Elt F)) :=
  [ nullary main_cst (fun i => FloatOps.ofBits .f32 (lit0 (S4x3.rowMajor i))),
    binary main_arg0 main_arg1 main_v0 (fun l r => Host.dotGeneral dot_S1000000x2_S2x64_S1000000x64_1_0_0_1_n_n none l r),
    unary main_arg2 main_v1 (broadcastInDim S1x64 ![1] bcast_S64_S1x64_1),
    unary main_v1 main_v2 (broadcastInDim S1000000x64 ![0, 1] bcast_S1x64_S1000000x64_0_1),
    binary main_v0 main_v2 main_v3 addf,
    TRef.nullary main_call0.cst (constant S_ .f32 0x00000000#32),
    TRef.unary main_call0.cst main_call0.v0 (broadcastInDim S1000000x64 ![] bcast_S_S1000000x64),
    TRef.binary (.of main_v3) main_call0.v0 main_call0.v1 maximumf,
    binary main_v4 main_arg3 main_v5 (fun l r => Host.dotGeneral dot_S1000000x64_S64x64_S1000000x64_1_0_0_1_n_n none l r),
    unary main_arg4 main_v6 (broadcastInDim S1x64 ![1] bcast_S64_S1x64_1),
    unary main_v6 main_v7 (broadcastInDim S1000000x64 ![0, 1] bcast_S1x64_S1000000x64_0_1),
    binary main_v5 main_v7 main_v8 addf,
    TRef.nullary main_call1.cst (constant S_ .f32 0x00000000#32),
    TRef.unary main_call1.cst main_call1.v0 (broadcastInDim S1000000x64 ![] bcast_S_S1000000x64),
    TRef.binary (.of main_v8) main_call1.v0 main_call1.v1 maximumf,
    binary main_v9 main_arg5 main_v10 (fun l r => Host.dotGeneral dot_S1000000x64_S64x64_S1000000x64_1_0_0_1_n_n none l r),
    unary main_arg6 main_v11 (broadcastInDim S1x64 ![1] bcast_S64_S1x64_1),
    unary main_v11 main_v12 (broadcastInDim S1000000x64 ![0, 1] bcast_S1x64_S1000000x64_0_1),
    binary main_v10 main_v12 main_v13 addf,
    TRef.nullary main_call2.cst (constant S_ .f32 0x00000000#32),
    TRef.unary main_call2.cst main_call2.v0 (broadcastInDim S1000000x64 ![] bcast_S_S1000000x64),
    TRef.binary (.of main_v13) main_call2.v0 main_call2.v1 maximumf,
    binary main_v14 main_arg7 main_v15 (fun l r => Host.dotGeneral dot_S1000000x64_S64x4_S1000000x4_1_0_0_1_n_n none l r),
    unary main_arg8 main_v16 (broadcastInDim S1x4 ![1] bcast_S4_S1x4_1),
    unary main_v16 main_v17 (broadcastInDim S1000000x4 ![0, 1] bcast_S1x4_S1000000x4_0_1),
    binary main_v15 main_v17 main_v18 addf,
    unary main_v18 main_v19 (transpose S4x1000000 [1, 0] · transposes_S1000000x4_S4x1000000_1_0),
    binary main_v14 main_arg9 main_v20 (fun l r => Host.dotGeneral dot_S1000000x64_S64x3_S1000000x3_1_0_0_1_n_n none l r),
    unary main_arg10 main_v21 (broadcastInDim S1x3 ![1] bcast_S3_S1x3_1),
    unary main_v21 main_v22 (broadcastInDim S1000000x3 ![0, 1] bcast_S1x3_S1000000x3_0_1),
    binary main_v20 main_v22 main_v23 addf,
    unary main_v23 main_v24 (transpose S3x1000000 [1, 0] · transposes_S1000000x3_S3x1000000_1_0),
    TRef.nullary main_call3.cst (constant S_ .f32 0x00000000#32),
    TRef.unary main_call3.cst main_call3.v0 (broadcastInDim S4x1000000 ![] bcast_S_S4x1000000),
    TRef.binary (.of main_v19) main_call3.v0 main_call3.v1 maximumf,
    unary main_cst main_v26 (transpose S3x4 [1, 0] · transposes_S4x3_S3x4_1_0),
    binary main_v26 main_v25 main_v27 (fun l r => Host.dotGeneral dot_S3x4_S4x1000000_S3x1000000_1_0_0_1_n_n none l r),
    TRef.binary (.of main_v27) (.of main_v27) main_call4.v0 mulf,
    TRef.nullary main_call4.cst (constant S_ .f32 0x00000000#32),
    TRef.binary main_call4.v0 main_call4.cst main_call4.v1 (fun x v => Host.reduceAdd x v reducesTo_S3x1000000_S1000000_d0 h_S_),
    TRef.unary main_call4.v1 main_call4.v2 Host.sqrt,
    nullary main_cst_0 (constant S_ .f32 0x3F800000#32),
    unary main_cst_0 main_v29 (broadcastInDim S1000000 ![] bcast_S_S1000000),
    binary main_v28 main_v29 main_v30 (cmpf .ogt),
    nullary main_cst_1 (constant S_ .f32 0x322BCC77#32),
    unary main_cst_1 main_v31 (broadcastInDim S1000000 ![] bcast_S_S1000000),
    binary main_v28 main_v31 main_v32 addf,
    nullary main_cst_2 (constant S_ .f32 0x3F800000#32),
    unary main_cst_2 main_v33 (broadcastInDim S1000000 ![] bcast_S_S1000000),
    binary main_v33 main_v32 main_v34 Host.divf,
    nullary main_cst_3 (constant S_ .f32 0x3F800000#32),
    TRef.unary (.of main_cst_3) main_call5.v0 id,
    TRef.unary main_call5.v0 main_call5.v1 (broadcastInDim S1000000 ![] bcast_S_S1000000),
    TRef.ternary (.of main_v30) (.of main_v34) main_call5.v1 main_call5.v2 select,
    unary main_v35 main_v36 (broadcastInDim S1x1000000 ![1] bcast_S1000000_S1x1000000_1),
    unary main_v36 main_v37 (broadcastInDim S4x1000000 ![0, 1] bcast_S1x1000000_S4x1000000_0_1),
    binary main_v25 main_v37 main_v38 mulf,
    TRef.binary (.of main_v24) (.of main_v24) main_call6.v0 mulf,
    TRef.nullary main_call6.cst (constant S_ .f32 0x00000000#32),
    TRef.binary main_call6.v0 main_call6.cst main_call6.v1 (fun x v => Host.reduceAdd x v reducesTo_S3x1000000_S1000000_d0 h_S_),
    TRef.unary main_call6.v1 main_call6.v2 (broadcastInDim S1x1000000 ![1] bcast_S1000000_S1x1000000_1),
    TRef.unary main_call6.v2 main_call6.v3 Host.sqrt,
    nullary main_cst_4 (constant S_ .f32 0x322BCC77#32),
    unary main_cst_4 main_v40 (broadcastInDim S1x1000000 ![] bcast_S_S1x1000000),
    binary main_v39 main_v40 main_v41 addf,
    unary main_v41 main_v42 (broadcastInDim S3x1000000 ![0, 1] bcast_S1x1000000_S3x1000000_0_1),
    binary main_v24 main_v42 main_v43 Host.divf ]

-- sixty-seven binds re-associated: the rewrite under the chain recurses once per statement
set_option maxRecDepth 2048 in
/-- @main is that straight line: the called functions' definitions unfolded at their calls, the sequencing re-associated. -/
theorem main_eq (c : Dev nD) : main (F := F) c = seq ops := by
  simp only [main, fn_relu.body, fn_relu_0.body, fn_norm.body, fn_norm_1.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., unary_bufs_sub .., binary_bufs_sub .., unary_bufs_sub .., unary_bufs_sub ..,
    binary_bufs_sub .., unary_bufs_sub .., nullary_bufs_sub .., unary_bufs_sub .., binary_bufs_sub .., unary_bufs_sub ..,
    binary_bufs_sub .., binary_bufs_sub .., nullary_bufs_sub .., binary_bufs_sub .., unary_bufs_sub .., nullary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., unary_bufs_sub .., binary_bufs_sub .., binary_bufs_sub .., nullary_bufs_sub .., binary_bufs_sub ..,
    unary_bufs_sub .., unary_bufs_sub .., nullary_bufs_sub .., unary_bufs_sub .., binary_bufs_sub .., unary_bufs_sub ..,
    binary_bufs_sub ..⟩

/-! ## The two results, layer by layer -/

/-- The first layer on the whole cloud: one row of 64 activations per point. -/
def rL1 (x : FVec F S1000000x2 .f32) (W : FVec F S2x64 .f32) (b : FVec F S64 .f32) : FVec F S1000000x64 .f32 :=
  maximumf
    (addf (Host.dotGeneral dot_S1000000x2_S2x64_S1000000x64_1_0_0_1_n_n none x W)
      (broadcastInDim S1000000x64 ![0, 1] bcast_S1x64_S1000000x64_0_1 (broadcastInDim S1x64 ![1] bcast_S64_S1x64_1 b)))
    (broadcastInDim S1000000x64 ![] bcast_S_S1000000x64 (constant S_ .f32 0x00000000#32))

/-- A 64 → 64 layer. -/
def rLH (h : FVec F S1000000x64 .f32) (W : FVec F S64x64 .f32) (b : FVec F S64 .f32) : FVec F S1000000x64 .f32 :=
  maximumf
    (addf (Host.dotGeneral dot_S1000000x64_S64x64_S1000000x64_1_0_0_1_n_n none h W)
      (broadcastInDim S1000000x64 ![0, 1] bcast_S1x64_S1000000x64_0_1 (broadcastInDim S1x64 ![1] bcast_S64_S1x64_1 b)))
    (broadcastInDim S1000000x64 ![] bcast_S_S1000000x64 (constant S_ .f32 0x00000000#32))

/-- The edge head, transposed to rows. -/
def rMuLin (h : FVec F S1000000x64 .f32) (W : FVec F S64x4 .f32) (b : FVec F S4 .f32) : FVec F S4x1000000 .f32 :=
  transpose S4x1000000 [1, 0]
    (addf (Host.dotGeneral dot_S1000000x64_S64x4_S1000000x4_1_0_0_1_n_n none h W)
      (broadcastInDim S1000000x4 ![0, 1] bcast_S1x4_S1000000x4_0_1 (broadcastInDim S1x4 ![1] bcast_S4_S1x4_1 b)))
    transposes_S1000000x4_S4x1000000_1_0

/-- The state head, transposed to rows. -/
def rLamLin (h : FVec F S1000000x64 .f32) (W : FVec F S64x3 .f32) (b : FVec F S3 .f32) : FVec F S3x1000000 .f32 :=
  transpose S3x1000000 [1, 0]
    (addf (Host.dotGeneral dot_S1000000x64_S64x3_S1000000x3_1_0_0_1_n_n none h W)
      (broadcastInDim S1000000x3 ![0, 1] bcast_S1x3_S1000000x3_0_1 (broadcastInDim S1x3 ![1] bcast_S3_S1x3_1 b)))
    transposes_S1000000x3_S3x1000000_1_0

/-- The rectifier on the edge rows. -/
def rRelu4 (x : FVec F S4x1000000 .f32) : FVec F S4x1000000 .f32 :=
  maximumf x (broadcastInDim S4x1000000 ![] bcast_S_S4x1000000 (constant S_ .f32 0x00000000#32))

/-- The constant 4 × 3 matrix G of the constraint, transposed. -/
def rGT : FVec F S3x4 .f32 :=
  transpose S3x4 [1, 0] (fun i => FloatOps.ofBits .f32 (lit0 (S4x3.rowMajor i))) transposes_S4x3_S3x4_1_0

/-- The sum of squares down each column of a three-row array. -/
def rSumSq (x : FVec F S3x1000000 .f32) : FVec F S1000000 .f32 :=
  Host.reduceAdd (mulf x x) (constant S_ .f32 0x00000000#32) reducesTo_S3x1000000_S1000000_d0 h_S_

/-- The clipping factor of each column: with n the length of Gᵀ·mu, 1 / (n + eps) where n > 1, else 1. -/
def rClipScale (mu : FVec F S4x1000000 .f32) : FVec F S1000000 .f32 :=
  select
    (cmpf .ogt (Host.sqrt (rSumSq (Host.dotGeneral dot_S3x4_S4x1000000_S3x1000000_1_0_0_1_n_n none rGT mu)))
      (broadcastInDim S1000000 ![] bcast_S_S1000000 (constant S_ .f32 0x3F800000#32)))
    (Host.divf (broadcastInDim S1000000 ![] bcast_S_S1000000 (constant S_ .f32 0x3F800000#32))
      (addf (Host.sqrt (rSumSq (Host.dotGeneral dot_S3x4_S4x1000000_S3x1000000_1_0_0_1_n_n none rGT mu)))
        (broadcastInDim S1000000 ![] bcast_S_S1000000 (constant S_ .f32 0x322BCC77#32))))
    (broadcastInDim S1000000 ![] bcast_S_S1000000 (id (constant S_ .f32 0x3F800000#32)))

/-- The edge rows, scaled. -/
def rMuOut (mu : FVec F S4x1000000 .f32) : FVec F S4x1000000 .f32 :=
  mulf mu (broadcastInDim S4x1000000 ![0, 1] bcast_S1x1000000_S4x1000000_0_1
    (broadcastInDim S1x1000000 ![1] bcast_S1000000_S1x1000000_1 (rClipScale mu)))

/-- The state rows over their column's length plus eps. -/
def rLamOut (lam : FVec F S3x1000000 .f32) : FVec F S3x1000000 .f32 :=
  Host.divf lam (broadcastInDim S3x1000000 ![0, 1] bcast_S1x1000000_S3x1000000_0_1
    (addf (Host.sqrt (broadcastInDim S1x1000000 ![1] bcast_S1000000_S1x1000000_1 (rSumSq lam)))
      (broadcastInDim S1x1000000 ![] bcast_S_S1x1000000 (constant S_ .f32 0x322BCC77#32))))

/-- The third hidden layer of every point. -/
def rHidden (x : FVec F S1000000x2 .f32) (W1 : FVec F S2x64 .f32) (b1 : FVec F S64 .f32) (W2 : FVec F S64x64 .f32)
    (b2 : FVec F S64 .f32) (W3 : FVec F S64x64 .f32) (b3 : FVec F S64 .f32) : FVec F S1000000x64 .f32 :=
  rLH (rLH (rL1 x W1 b1) W2 b2) W3 b3

/-- The first result. -/
def refMu (x : FVec F S1000000x2 .f32) (W1 : FVec F S2x64 .f32) (b1 : FVec F S64 .f32) (W2 : FVec F S64x64 .f32)
    (b2 : FVec F S64 .f32) (W3 : FVec F S64x64 .f32) (b3 : FVec F S64 .f32) (Wmu : FVec F S64x4 .f32) (bmu : FVec F S4 .f32) :
    FVec F S4x1000000 .f32 :=
  rMuOut (rRelu4 (rMuLin (rHidden x W1 b1 W2 b2 W3 b3) Wmu bmu))

/-- The second result. -/
def refLam (x : FVec F S1000000x2 .f32) (W1 : FVec F S2x64 .f32) (b1 : FVec F S64 .f32) (W2 : FVec F S64x64 .f32)
    (b2 : FVec F S64 .f32) (W3 : FVec F S64x64 .f32) (b3 : FVec F S64 .f32) (Wlam : FVec F S64x3 .f32) (blam : FVec F S3 .f32) :
    FVec F S3x1000000 .f32 :=
  rLamOut (rLamLin (rHidden x W1 b1 W2 b2 W3 b3) Wlam blam)

set_option maxRecDepth 8192 in
set_option maxHeartbeats 1000000 in
/-- The operations' fold at the first result's buffer is `refMu` of the arguments. -/
theorem out_mu (V : Valuation τ sig (Elt F)) :
    after ops V (Proc.devRef .tc main_v38)
      = refMu (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8)) := by
  after_results_simp
  rfl

set_option maxRecDepth 8192 in
set_option maxHeartbeats 1000000 in
/-- … and at the second's, `refLam`. -/
theorem out_lam (V : Valuation τ sig (Elt F)) :
    after ops V (Proc.devRef .tc main_v43)
      = refLam (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg9)) (V (Proc.devRef .tc main_arg10)) := by
  after_results_simp
  rfl

/-- No operation writes an argument. -/
theorem kept0 (V : Valuation τ sig (Elt F)) : after ops V (Proc.devRef .tc main_arg0) = V (Proc.devRef .tc main_arg0) := by
  after_results_simp
theorem kept1 (V : Valuation τ sig (Elt F)) : after ops V (Proc.devRef .tc main_arg1) = V (Proc.devRef .tc main_arg1) := by
  after_results_simp
theorem kept2 (V : Valuation τ sig (Elt F)) : after ops V (Proc.devRef .tc main_arg2) = V (Proc.devRef .tc main_arg2) := by
  after_results_simp
theorem kept3 (V : Valuation τ sig (Elt F)) : after ops V (Proc.devRef .tc main_arg3) = V (Proc.devRef .tc main_arg3) := by
  after_results_simp
theorem kept4 (V : Valuation τ sig (Elt F)) : after ops V (Proc.devRef .tc main_arg4) = V (Proc.devRef .tc main_arg4) := by
  after_results_simp
theorem kept5 (V : Valuation τ sig (Elt F)) : after ops V (Proc.devRef .tc main_arg5) = V (Proc.devRef .tc main_arg5) := by
  after_results_simp
theorem kept6 (V : Valuation τ sig (Elt F)) : after ops V (Proc.devRef .tc main_arg6) = V (Proc.devRef .tc main_arg6) := by
  after_results_simp
theorem kept7 (V : Valuation τ sig (Elt F)) : after ops V (Proc.devRef .tc main_arg7) = V (Proc.devRef .tc main_arg7) := by
  after_results_simp
theorem kept8 (V : Valuation τ sig (Elt F)) : after ops V (Proc.devRef .tc main_arg8) = V (Proc.devRef .tc main_arg8) := by
  after_results_simp
theorem kept9 (V : Valuation τ sig (Elt F)) : after ops V (Proc.devRef .tc main_arg9) = V (Proc.devRef .tc main_arg9) := by
  after_results_simp
theorem kept10 (V : Valuation τ sig (Elt F)) : after ops V (Proc.devRef .tc main_arg10) = V (Proc.devRef .tc main_arg10) := by
  after_results_simp

/-- On every device, from any memory with zero counters: every weakly fair execution of @main terminates with the two
    results at `refMu` and `refLam` of the launched arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
          = refMu (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
      ∧ r.2.mem ((c.tc : Thread nD τ).loc main_v43)
          = refLam (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v38).trans (out_mu _), (h c main_v43).trans (out_lam _),
      (h c main_arg0).trans (kept0 _), (h c main_arg1).trans (kept1 _), (h c main_arg2).trans (kept2 _),
      (h c main_arg3).trans (kept3 _), (h c main_arg4).trans (kept4 _), (h c main_arg5).trans (kept5 _),
      (h c main_arg6).trans (kept6 _), (h c main_arg7).trans (kept7 _), (h c main_arg8).trans (kept8 _),
      (h c main_arg9).trans (kept9 _), (h c main_arg10).trans (kept10 _)⟩)
    (run_seq scopedRefs_eq scopedSems_eq defs main (fun _ => ops) main_eq (fun _ => ops_sub) m ρ)

end Cert.ReferenceIdeal.Hand

end
-- ==== Proof.LibReadHost.lean ====
/-
  Host arrays read at an entry: a vector laid as a one-row matrix, and the sum down the columns of a three-row matrix.
-/
import Idealize.ShloMosaic.Lib.Pipeline.Value
import Idealize.ShloMosaic.Lib.ValueIdx
import Idealize.ShloMosaic.Lib.IdealHost
import Idealize.ShloMosaic.PureOps.Ideal.Laws

namespace ReadHost

open Idealize.ShloMosaic Idealize.ShloMosaic.ValueIdx

/-- A vector of n entries broadcast to a [1, n] matrix along its second axis reads, at (0, j), entry j. -/
theorem broadcastInDim_vec_oneRow_apply {α : Type} {n : ℕ}
    (h : (⟨1, ![n]⟩ : Shape).BroadcastsInDim ⟨2, ![1, n]⟩ ![1]) (b : (⟨1, ![n]⟩ : Shape).Idx → α) (j : Fin n) :
    broadcastInDim ⟨2, ![1, n]⟩ ![1] h b (ix2 (0 : Fin 1) j) = b (ix1 j) := by
  refine broadcastInDim_apply ![1] h b (ix2 (0 : Fin 1) j) (ix1 j) fun a => ?_
  match a with
  | ⟨0, _⟩ =>
    show j.val = if n = 1 then 0 else j.val
    split
    · have := j.isLt; omega
    · rfl

/-- The host's sum over the rows of an [a, n] matrix, at column j: the initial value plus the column's entries. -/
theorem reduceAdd_rows_apply {a n : ℕ} (x : FVec Ideal ⟨2, ![a, n]⟩ .f32) (init : (⟨0, ![]⟩ : Shape).Idx → Ideal .f32)
    (h' : (⟨2, ![a, n]⟩ : Shape).ReducesTo [0] ⟨1, ![n]⟩) (hu : 0 < (⟨0, ![]⟩ : Shape).numel)
    (h : (⟨2, ![a, n]⟩ : Shape).Reduces [0] ⟨1, ![n]⟩) (j : Fin n) :
    Host.reduceAdd x init h' hu (ix1 j) = init ix0 + ∑ k : Fin a, x (ix2 k j) := by
  rw [hostReduceAdd_apply, Ideal.hostReduceAdd_single h' h]
  refine congrArg₂ (· + ·) (congrArg init (eq_ix0 _)) (Finset.sum_congr rfl fun k _ => congrArg x ?_)
  funext d
  match d with
  | ⟨0, _⟩ => rfl
  | ⟨1, _⟩ => rfl

end ReadHost
-- ==== Proof.RefRead.lean ====
/-
  The reference's two results, read at an entry.

  Row n of the cloud goes through the three rectified layers; the heads' values are transposed so that point n sits in
  column n. The constraint matrix G has two non-zero columns, (1, -1, 0, 0) and (0, 0, 1, -1), and a zero column, so
  Gᵀ·mu is (mu 0 - mu 1, mu 2 - mu 3, 0) and its length is the length of the first two. Both Euclidean lengths are a
  host sum from zero over three rows. So entry (e, n) of the first result and entry (s, n) of the second are the
  network's edge and state outputs at point n.
-/
import proofs.«414268_j89300960018671_3_alg».proof.Proof.RefRun
import proofs.«414268_j89300960018671_3_alg».proof.Proof.SpecArr
import proofs.«414268_j89300960018671_3_alg».proof.Proof.LibPlainDot
import proofs.«414268_j89300960018671_3_alg».proof.Proof.LibReadHost
import Idealize.ShloMosaic.Lib.ValueLayout
import Idealize.ShloMosaic.Lib.KernelVsHost
import Idealize.ShloMosaic.Lib.IdealHost

noncomputable section

namespace Cert.ReferenceIdeal.Hand

open Cert.ReferenceIdeal Cert.ReferenceIdeal.Gen Idealize.ShloMosaic Idealize.ShloMosaic.ValueIdx HardProj

/-! ## Each layer at an entry -/

/-- The host's square root, entry by entry. -/
theorem hostSqrt_apply {s : Shape} {φ : FTy} (a : FVec Ideal s φ) (i : s.Idx) : Host.sqrt a i = Ideal.sqrt (a i) := rfl

/-- The first layer at (n, j). -/
theorem rL1_apply (x : FVec Ideal S1000000x2 .f32) (W : FVec Ideal S2x64 .f32) (b : FVec Ideal S64 .f32)
    (n : Fin 1000000) (j : Fin 64) :
    rL1 (F := Ideal) x W b (ix2 n j) = max ((∑ k : Fin 2, x (ix2 n k) * W (ix2 k j)) + b (ix1 j)) c0 := by
  unfold rL1
  rw [maximumf_apply, addf_apply, broadcastInDim_scalar_apply, broadcastInDim_oneRow_apply,
    ReadHost.broadcastInDim_vec_oneRow_apply]
  rw [show Host.dotGeneral dot_S1000000x2_S2x64_S1000000x64_1_0_0_1_n_n none x W (ix2 n j) = _ from
    PlainDot.dotGeneral_apply dot_S1000000x2_S2x64_S1000000x64_1_0_0_1_n_n ⟨rfl, rfl, rfl, rfl, rfl, rfl⟩ none .single x W n j]
  rfl

/-- A 64 → 64 layer at (n, j). -/
theorem rLH_apply (h : FVec Ideal S1000000x64 .f32) (W : FVec Ideal S64x64 .f32) (b : FVec Ideal S64 .f32)
    (n : Fin 1000000) (j : Fin 64) :
    rLH (F := Ideal) h W b (ix2 n j) = max ((∑ k : Fin 64, h (ix2 n k) * W (ix2 k j)) + b (ix1 j)) c0 := by
  unfold rLH
  rw [maximumf_apply, addf_apply, broadcastInDim_scalar_apply, broadcastInDim_oneRow_apply,
    ReadHost.broadcastInDim_vec_oneRow_apply]
  rw [show Host.dotGeneral dot_S1000000x64_S64x64_S1000000x64_1_0_0_1_n_n none h W (ix2 n j) = _ from
    PlainDot.dotGeneral_apply dot_S1000000x64_S64x64_S1000000x64_1_0_0_1_n_n ⟨rfl, rfl, rfl, rfl, rfl, rfl⟩ none .single h W n j]
  rfl

/-- The edge head at (e, n). -/
theorem rMuLin_apply (h : FVec Ideal S1000000x64 .f32) (W : FVec Ideal S64x4 .f32) (b : FVec Ideal S4 .f32)
    (e : Fin 4) (n : Fin 1000000) :
    rMuLin (F := Ideal) h W b (ix2 e n) = (∑ k : Fin 64, h (ix2 n k) * W (ix2 k e)) + b (ix1 e) := by
  unfold rMuLin
  rw [transpose_ix2_apply, addf_apply, broadcastInDim_oneRow_apply, ReadHost.broadcastInDim_vec_oneRow_apply]
  rw [show Host.dotGeneral dot_S1000000x64_S64x4_S1000000x4_1_0_0_1_n_n none h W (ix2 n e) = _ from
    PlainDot.dotGeneral_apply dot_S1000000x64_S64x4_S1000000x4_1_0_0_1_n_n ⟨rfl, rfl, rfl, rfl, rfl, rfl⟩ none .single h W n e]

/-- The state head at (s, n). -/
theorem rLamLin_apply (h : FVec Ideal S1000000x64 .f32) (W : FVec Ideal S64x3 .f32) (b : FVec Ideal S3 .f32)
    (s : Fin 3) (n : Fin 1000000) :
    rLamLin (F := Ideal) h W b (ix2 s n) = (∑ k : Fin 64, h (ix2 n k) * W (ix2 k s)) + b (ix1 s) := by
  unfold rLamLin
  rw [transpose_ix2_apply, addf_apply, broadcastInDim_oneRow_apply, ReadHost.broadcastInDim_vec_oneRow_apply]
  rw [show Host.dotGeneral dot_S1000000x64_S64x3_S1000000x3_1_0_0_1_n_n none h W (ix2 n s) = _ from
    PlainDot.dotGeneral_apply dot_S1000000x64_S64x3_S1000000x3_1_0_0_1_n_n ⟨rfl, rfl, rfl, rfl, rfl, rfl⟩ none .single h W n s]

/-- The rectifier on the edge rows, at an entry. -/
theorem rRelu4_apply (x : FVec Ideal S4x1000000 .f32) (e : Fin 4) (n : Fin 1000000) :
    rRelu4 (F := Ideal) x (ix2 e n) = relu (x (ix2 e n)) := by
  unfold rRelu4
  rw [maximumf_apply, broadcastInDim_scalar_apply]
  rfl

/-- The sum of squares down column n. -/
theorem rSumSq_apply (x : FVec Ideal S3x1000000 .f32) (n : Fin 1000000) :
    rSumSq (F := Ideal) x (ix1 n) = x (ix2 (0 : Fin 3) n) * x (ix2 (0 : Fin 3) n) + x (ix2 (1 : Fin 3) n) * x (ix2 (1 : Fin 3) n)
      + x (ix2 (2 : Fin 3) n) * x (ix2 (2 : Fin 3) n) := by
  unfold rSumSq
  rw [ReadHost.reduceAdd_rows_apply _ _ _ _ (by decide) n, Fin.sum_univ_three]
  show Ideal.ofBits .f32 0x00000000#32 + _ = _
  rw [Ideal.ofBits_zero_f32, zero_add]
  rfl

/-! ## The constraint matrix -/

/-- The f32 pattern of minus one. -/
theorem ofBits_neg_one_f32 : Ideal.ofBits .f32 0xBF800000#32 = -1 := by
  have h : Ideal.ofBits .f32 0xBF800000#32 = ((-(1 : ℝ) : ℝ) : EReal) := by
    simp [Ideal.ofBits, Ideal.ieee, -EReal.coe_mul, -EReal.coe_neg]; norm_num
  rw [h, EReal.coe_neg, EReal.coe_one]

/-- Entry (s, e) of Gᵀ is entry (e, s) of the printed table. -/
theorem rGT_apply (s : Fin 3) (e : Fin 4) :
    rGT (F := Ideal) (ix2 s e) = Ideal.ofBits .f32 (lit0 (S4x3.rowMajor (ix2 e s))) := by
  unfold rGT; exact transpose_ix2_apply _ _ s e

/-- Gᵀ against a 4-vector: (a 0 - a 1, a 2 - a 3, 0). -/
theorem gt_rows (a : Fin 4 → EReal) :
    (∑ e : Fin 4, rGT (F := Ideal) (ix2 (0 : Fin 3) e) * a e) = a 0 - a 1
    ∧ (∑ e : Fin 4, rGT (F := Ideal) (ix2 (1 : Fin 3) e) * a e) = a 2 - a 3
    ∧ (∑ e : Fin 4, rGT (F := Ideal) (ix2 (2 : Fin 3) e) * a e) = 0 := by
  have L00 : lit0 (S4x3.rowMajor (ix2 (0 : Fin 4) (0 : Fin 3))) = 0x3F800000#32 := by decide
  have L10 : lit0 (S4x3.rowMajor (ix2 (1 : Fin 4) (0 : Fin 3))) = 0xBF800000#32 := by decide
  have L20 : lit0 (S4x3.rowMajor (ix2 (2 : Fin 4) (0 : Fin 3))) = 0x00000000#32 := by decide
  have L30 : lit0 (S4x3.rowMajor (ix2 (3 : Fin 4) (0 : Fin 3))) = 0x00000000#32 := by decide
  have L01 : lit0 (S4x3.rowMajor (ix2 (0 : Fin 4) (1 : Fin 3))) = 0x00000000#32 := by decide
  have L11 : lit0 (S4x3.rowMajor (ix2 (1 : Fin 4) (1 : Fin 3))) = 0x00000000#32 := by decide
  have L21 : lit0 (S4x3.rowMajor (ix2 (2 : Fin 4) (1 : Fin 3))) = 0x3F800000#32 := by decide
  have L31 : lit0 (S4x3.rowMajor (ix2 (3 : Fin 4) (1 : Fin 3))) = 0xBF800000#32 := by decide
  have L02 : lit0 (S4x3.rowMajor (ix2 (0 : Fin 4) (2 : Fin 3))) = 0x00000000#32 := by decide
  have L12 : lit0 (S4x3.rowMajor (ix2 (1 : Fin 4) (2 : Fin 3))) = 0x00000000#32 := by decide
  have L22 : lit0 (S4x3.rowMajor (ix2 (2 : Fin 4) (2 : Fin 3))) = 0x00000000#32 := by decide
  have L32 : lit0 (S4x3.rowMajor (ix2 (3 : Fin 4) (2 : Fin 3))) = 0x00000000#32 := by decide
  simp only [Fin.sum_univ_four, rGT_apply, L00, L10, L20, L30, L01, L11, L21, L31, L02, L12, L22, L32,
    Ideal.ofBits_one_f32, ofBits_neg_one_f32, Ideal.ofBits_zero_f32, one_mul, zero_mul, neg_mul, add_zero, zero_add,
    sub_eq_add_neg, and_self]

/-- Gᵀ·mu at (s, n). -/
theorem gt_dot_apply (mu : FVec Ideal S4x1000000 .f32) (s : Fin 3) (n : Fin 1000000) :
    Host.dotGeneral dot_S3x4_S4x1000000_S3x1000000_1_0_0_1_n_n none (rGT (F := Ideal)) mu (ix2 s n)
      = ∑ e : Fin 4, rGT (F := Ideal) (ix2 s e) * mu (ix2 e n) :=
  PlainDot.dotGeneral_apply dot_S3x4_S4x1000000_S3x1000000_1_0_0_1_n_n ⟨rfl, rfl, rfl, rfl, rfl, rfl⟩ none .single _ mu s n

/-! ## The two projections at an entry -/

/-- The clipping factor of column n. -/
theorem rClipScale_apply (mu : FVec Ideal S4x1000000 .f32) (n : Fin 1000000) :
    rClipScale (F := Ideal) mu (ix1 n) = clipScale (fun e => mu (ix2 e n)) := by
  obtain ⟨g0, g1, g2⟩ := gt_rows (fun e => mu (ix2 e n))
  have hs : rSumSq (F := Ideal) (Host.dotGeneral dot_S3x4_S4x1000000_S3x1000000_1_0_0_1_n_n none (rGT (F := Ideal)) mu) (ix1 n)
      = (mu (ix2 (0 : Fin 4) n) - mu (ix2 (1 : Fin 4) n)) * (mu (ix2 (0 : Fin 4) n) - mu (ix2 (1 : Fin 4) n))
        + (mu (ix2 (2 : Fin 4) n) - mu (ix2 (3 : Fin 4) n)) * (mu (ix2 (2 : Fin 4) n) - mu (ix2 (3 : Fin 4) n)) := by
    rw [rSumSq_apply, gt_dot_apply, gt_dot_apply, gt_dot_apply, g0, g1, g2, mul_zero, add_zero]
  unfold rClipScale
  rw [select_apply, cmpf_apply, hostDivf_apply, addf_apply, hostSqrt_apply, hs]
  rfl

/-- The scaled edge rows at (e, n). -/
theorem rMuOut_apply (mu : FVec Ideal S4x1000000 .f32) (e : Fin 4) (n : Fin 1000000) :
    rMuOut (F := Ideal) mu (ix2 e n) = clip (fun e' => mu (ix2 e' n)) e := by
  unfold rMuOut
  rw [mulf_apply, broadcastInDim_oneRow_apply, ReadHost.broadcastInDim_vec_oneRow_apply, rClipScale_apply]
  rfl

/-- The normalized state rows at (s, n). -/
theorem rLamOut_apply (lam : FVec Ideal S3x1000000 .f32) (s : Fin 3) (n : Fin 1000000) :
    rLamOut (F := Ideal) lam (ix2 s n) = unit (fun s' => lam (ix2 s' n)) s := by
  unfold rLamOut
  rw [hostDivf_apply, broadcastInDim_oneRow_apply, addf_apply, hostSqrt_apply, ReadHost.broadcastInDim_vec_oneRow_apply,
    broadcastInDim_scalar_apply, rSumSq_apply]
  rfl

/-! ## The results against the network -/

section Against
variable (P : Net) (x : FVec Ideal S1000000x2 .f32)

theorem h1_eq (n : Fin 1000000) (j : Fin 64) :
    rL1 (F := Ideal) x P.W1 P.b1 (ix2 n j) = hid1 P (x (ix2 n (0 : Fin 2))) (x (ix2 n (1 : Fin 2))) j := by
  rw [rL1_apply, Fin.sum_univ_two]; rfl

theorem h2_eq (n : Fin 1000000) (j : Fin 64) :
    rLH (F := Ideal) (rL1 x P.W1 P.b1) P.W2 P.b2 (ix2 n j) = hid2 P (x (ix2 n (0 : Fin 2))) (x (ix2 n (1 : Fin 2))) j := by
  rw [rLH_apply]
  unfold hid2 relu dense
  refine congrArg (fun s => max (s + P.b2 (ix1 j)) c0) (Finset.sum_congr rfl fun k _ => ?_)
  rw [h1_eq]

theorem h3_eq (n : Fin 1000000) (j : Fin 64) :
    rHidden (F := Ideal) x P.W1 P.b1 P.W2 P.b2 P.W3 P.b3 (ix2 n j) = hid3 P (x (ix2 n (0 : Fin 2))) (x (ix2 n (1 : Fin 2))) j := by
  unfold rHidden
  rw [rLH_apply]
  unfold hid3 relu dense
  refine congrArg (fun s => max (s + P.b3 (ix1 j)) c0) (Finset.sum_congr rfl fun k _ => ?_)
  rw [h2_eq]

/-- The first result is the edge values of every point. -/
theorem refMu_eq : refMu (F := Ideal) x P.W1 P.b1 P.W2 P.b2 P.W3 P.b3 P.Wmu P.bmu = muArr P x := by
  funext j
  obtain ⟨e, n, rfl⟩ : ∃ (e : Fin 4) (n : Fin 1000000), j = ix2 e n := ⟨j 0, j 1, eq_ix2 j⟩
  rw [muArr_apply]
  unfold refMu muOut
  rw [rMuOut_apply]
  refine congrArg (fun f => clip f e) (funext fun e' => ?_)
  rw [rRelu4_apply, rMuLin_apply]
  unfold muRelu dense
  refine congrArg (fun s => relu (s + P.bmu (ix1 e'))) (Finset.sum_congr rfl fun k _ => ?_)
  rw [h3_eq]

/-- The second the state values. -/
theorem refLam_eq : refLam (F := Ideal) x P.W1 P.b1 P.W2 P.b2 P.W3 P.b3 P.Wlam P.blam = lamArr P x := by
  funext j
  obtain ⟨s, n, rfl⟩ : ∃ (s : Fin 3) (n : Fin 1000000), j = ix2 s n := ⟨j 0, j 1, eq_ix2 j⟩
  rw [lamArr_apply]
  unfold refLam lamOut
  rw [rLamOut_apply]
  refine congrArg (fun f => unit f s) (funext fun s' => ?_)
  rw [rLamLin_apply]
  unfold lamLin dense
  refine congrArg (fun t => t + P.blam (ix1 s')) (Finset.sum_congr rfl fun k _ => ?_)
  rw [h3_eq]

end Against

end Cert.ReferenceIdeal.Hand

end
-- ==== Proof.lean ====
/-
  The kernel and the reference compute the same two arrays on the extended reals.

  The network: a point (x0, x1) of the cloud goes through three dense layers of width 64, each followed by a
  rectifier, then through an edge head (four values, rectified) and a state head (three values). The edge values are
  scaled by the factor that clips the length of (mu 0 - mu 1, mu 2 - mu 3) to one; the state values are divided by
  their Euclidean length plus eps.

  The kernel lays the points along the columns: it transposes and zero-pads the cloud to 62 blocks of 16384 columns,
  stages the weights transposed and the biases as columns, and each grid point writes the seven outputs of its 16384
  points; the first layer is two broadcast products, the two heads are one stacked 7 × 64 product, and the length of
  Gᵀ·mu is written out as the length of the two differences. The reference keeps one point per row, multiplies by
  the constant matrix G, takes both lengths by a host sum, and transposes the heads. Entry by entry both are
  `muOut` / `lamOut` of Proof/Spec.lean: sums of products with the factors commuted, Gᵀ·mu evaluated row by row,
  a sum from zero of three squares. No law used needs finite values, so the precondition is not opened.

  Proof/KBody.lean reads the kernel body's stored block at an entry, Proof/KHost.lean the arrays the host lines
  before the region leave, Proof/KArray.lean the result array after the grid and the two slices after it;
  Proof/RefRun.lean runs the reference, Proof/RefRead.lean reads its results at an entry. The three frames are the
  kernels' frame runs and the reference's run; the idealization rewrote nothing, so `preserves` is trivial.
-/
import proofs.«414268_j89300960018671_3_alg».proof.Defs
import proofs.«414268_j89300960018671_3_alg».proof.Proof.Gen.Kernel
import proofs.«414268_j89300960018671_3_alg».proof.Proof.Gen.Kernel.Frame
import proofs.«414268_j89300960018671_3_alg».proof.Proof.Gen.KernelIdeal
import proofs.«414268_j89300960018671_3_alg».proof.Proof.Gen.KernelIdeal.Frame
import proofs.«414268_j89300960018671_3_alg».proof.Proof.Gen.ReferenceIdeal
import proofs.«414268_j89300960018671_3_alg».proof.Proof.Gen.Pre_finite_inputs
import proofs.«414268_j89300960018671_3_alg».proof.Proof.KArray
import proofs.«414268_j89300960018671_3_alg».proof.Proof.RefRead

noncomputable section

namespace Cert.Proof

open Idealize.ShloMosaic Idealize.SL.Sem HardProj

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Hand.run (F := Ideal) m ρ)

theorem preserves : Cert.preserves_Kernel_KernelIdeal := trivial

/-- Both programs end with the edge and the state values of every point of the cloud: the kernel's run has them by
    Proof/KArray.lean, the reference's by Proof/RefRead.lean, of arguments that agree. -/
theorem algebraic : Cert.algebraic_KernelIdeal_ReferenceIdeal := by
  intro m ρ m' ρ' _ hagree
  refine ⟨fun c => muArr (Cert.KernelIdeal.Arr.net m c) (m ((c.tc : Thread Cert.KernelIdeal.nD Cert.KernelIdeal.τ).loc Cert.KernelIdeal.main_arg0)),
    fun c => lamArr (Cert.KernelIdeal.Arr.net m c) (m ((c.tc : Thread Cert.KernelIdeal.nD Cert.KernelIdeal.τ).loc Cert.KernelIdeal.main_arg0)),
    Cert.KernelIdeal.Arr.run m ρ, ?_⟩
  refine (θ_run Cert.ReferenceIdeal.defs _ _).mono (fun _ h c => ?_) (Cert.ReferenceIdeal.Hand.run (F := Ideal) m' ρ')
  obtain ⟨a0, a1, a2, a3, a4, a5, a6, a7, a8, a9, a10⟩ := hagree c
  refine ⟨(h c).1.trans ?_, (h c).2.1.trans ?_, (h c).2.2⟩
  · rw [a0, a1, a2, a3, a4, a5, a6, a7, a8]
    exact Cert.ReferenceIdeal.Hand.refMu_eq (Cert.KernelIdeal.Arr.net m c) _
  · rw [a0, a1, a2, a3, a4, a5, a6, a9, a10]
    exact Cert.ReferenceIdeal.Hand.refLam_eq (Cert.KernelIdeal.Arr.net m c) _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
